-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1280x64x64 : Shape := ⟨4, ![4, 1280, 64, 64]⟩
abbrev S16x512 : Shape := ⟨2, ![16, 512]⟩
abbrev S16x64x64 : Shape := ⟨3, ![16, 64, 64]⟩
abbrev S1280x512 : Shape := ⟨2, ![1280, 512]⟩
abbrev S1280 : Shape := ⟨1, ![1280]⟩
abbrev S_ : Shape := ⟨0, ![]⟩

class Facts : Prop where
  bcast_S_S4x1280x64x64 : S_.BroadcastsInDim S4x1280x64x64 (![] : Fin 0 → Fin S4x1280x64x64.rank)
  reducesTo_S4x1280x64x64_S_d0_1_2_3 : S4x1280x64x64.ReducesTo [0, 1, 2, 3] S_
  h_S_ : 0 < S_.numel
  bcast_S_S16x512 : S_.BroadcastsInDim S16x512 (![] : Fin 0 → Fin S16x512.rank)
  reducesTo_S16x512_S_d0_1 : S16x512.ReducesTo [0, 1] S_
  bcast_S_S16x64x64 : S_.BroadcastsInDim S16x64x64 (![] : Fin 0 → Fin S16x64x64.rank)
  reducesTo_S16x64x64_S_d0_1_2 : S16x64x64.ReducesTo [0, 1, 2] S_
  bcast_S_S1280x512 : S_.BroadcastsInDim S1280x512 (![] : Fin 0 → Fin S1280x512.rank)
  reducesTo_S1280x512_S_d0_1 : S1280x512.ReducesTo [0, 1] S_
  bcast_S_S1280 : S_.BroadcastsInDim S1280 (![] : Fin 0 → Fin S1280.rank)
  reducesTo_S1280_S_d0 : S1280.ReducesTo [0] S_

variable [Facts]

def fn_part1 {F : FTy → Type} [FloatOps F] (main_arg4 : FVec F S1280 .f32) (main_v13 : IVec S_ 1) (main_v16 : IVec S1280x512 1) : IVec S_ 1 :=
  let main_c_5 : IVec S_ 1 := constantI S_ 1 1#1
  let main_v17 : IVec S_ 1 := (fun x v => Host.reduce IntOp.andi x v reducesTo_S1280x512_S_d0_1 h_S_) main_v16 main_c_5
  let main_v18 : IVec S_ 1 := andi main_v13 main_v17
  let main_v19 : FVec F S1280 .f32 := Host.absf main_arg4
  let main_cst_6 : FVec F S_ .f32 := constant S_ .f32 0x7F800000#32
  let main_v20 : FVec F S1280 .f32 := broadcastInDim S1280 ![] bcast_S_S1280 main_cst_6
  let main_v21 : IVec S1280 1 := cmpf .olt main_v19 main_v20
  let main_c_7 : IVec S_ 1 := constantI S_ 1 1#1
  let main_v22 : IVec S_ 1 := (fun x v => Host.reduce IntOp.andi x v reducesTo_S1280_S_d0 h_S_) main_v21 main_c_7
  let main_v23 : IVec S_ 1 := andi main_v18 main_v22
  main_v23

def fn {F : FTy → Type} [FloatOps F] (main_arg0 : FVec F S4x1280x64x64 .f32) (main_arg1 : FVec F S16x512 .f32) (main_arg2 : FVec F S16x64x64 .f32) (main_arg3 : FVec F S1280x512 .f32) (main_arg4 : FVec F S1280 .f32) : IVec S_ 1 :=
  let main_v0 : FVec F S4x1280x64x64 .f32 := Host.absf main_arg0
  let main_cst : FVec F S_ .f32 := constant S_ .f32 0x7F800000#32
  let main_v1 : FVec F S4x1280x64x64 .f32 := broadcastInDim S4x1280x64x64 ![] bcast_S_S4x1280x64x64 main_cst
  let main_v2 : IVec S4x1280x64x64 1 := cmpf .olt main_v0 main_v1
  let main_c : IVec S_ 1 := constantI S_ 1 1#1
  let main_v3 : IVec S_ 1 := (fun x v => Host.reduce IntOp.andi x v reducesTo_S4x1280x64x64_S_d0_1_2_3 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S16x64x64 .f32 := Host.absf main_arg2
  let main_cst_2 : FVec F S_ .f32 := constant S_ .f32 0x7F800000#32
  let main_v10 : FVec F S16x64x64 .f32 := broadcastInDim S16x64x64 ![] bcast_S_S16x64x64 main_cst_2
  let main_v11 : IVec S16x64x64 1 := cmpf .olt main_v9 main_v10
  let main_c_3 : IVec S_ 1 := constantI S_ 1 1#1
  let main_v12 : IVec S_ 1 := (fun x v => Host.reduce IntOp.andi x v reducesTo_S16x64x64_S_d0_1_2 h_S_) main_v11 main_c_3
  let main_v13 : IVec S_ 1 := andi main_v8 main_v12
  let main_v14 : FVec F S1280x512 .f32 := Host.absf main_arg3
  let main_cst_4 : FVec F S_ .f32 := constant S_ .f32 0x7F800000#32
  let main_v15 : FVec F S1280x512 .f32 := broadcastInDim S1280x512 ![] bcast_S_S1280x512 main_cst_4
  let main_v16 : IVec S1280x512 1 := cmpf .olt main_v14 main_v15
  fn_part1 (F := F) main_arg4 main_v13 main_v16
-- ==== Kernel.lean ====
abbrev S4x1280x64x64 : Shape := ⟨4, ![4, 1280, 64, 64]⟩
abbrev S16x512 : Shape := ⟨2, ![16, 512]⟩
abbrev S16x64x64 : Shape := ⟨3, ![16, 64, 64]⟩
abbrev S1280x512 : Shape := ⟨2, ![1280, 512]⟩
abbrev S1280 : Shape := ⟨1, ![1280]⟩
abbrev S16x4096 : Shape := ⟨2, ![16, 4096]⟩
abbrev S1280x1 : Shape := ⟨2, ![1280, 1]⟩
abbrev S1280x4096 : Shape := ⟨2, ![1280, 4096]⟩
abbrev S256x512 : Shape := ⟨2, ![256, 512]⟩
abbrev S256x1 : Shape := ⟨2, ![256, 1]⟩
abbrev S256x4096 : Shape := ⟨2, ![256, 4096]⟩
abbrev S1x4096 : Shape := ⟨2, ![1, 4096]⟩
abbrev S256x16 : Shape := ⟨2, ![256, 16]⟩
abbrev S1280x64x64 : Shape := ⟨3, ![1280, 64, 64]⟩
abbrev S1x1280x64x64 : Shape := ⟨4, ![1, 1280, 64, 64]⟩

abbrev nBuf : Space → Nat
  | .hbm => 13
  | .vmem => 9
  | .smem => 0
  | _ => 0

abbrev bufTy : (tb : Table) → Fin (tcTables nBuf tb) → BufTy
  | .hbm, ⟨0, _⟩ => ⟨S4x1280x64x64, .f32⟩
  | .hbm, ⟨1, _⟩ => ⟨S16x512, .f32⟩
  | .hbm, ⟨2, _⟩ => ⟨S16x64x64, .f32⟩
  | .hbm, ⟨3, _⟩ => ⟨S1280x512, .f32⟩
  | .hbm, ⟨4, _⟩ => ⟨S1280, .f32⟩
  | .hbm, ⟨5, _⟩ => ⟨S16x4096, .f32⟩
  | .hbm, ⟨6, _⟩ => ⟨S1280x1, .f32⟩
  | .hbm, ⟨7, _⟩ => ⟨S1280x4096, .bf16⟩
  | .hbm, ⟨8, _⟩ => ⟨S1280x4096, .f32⟩
  | .hbm, ⟨9, _⟩ => ⟨S1280x64x64, .f32⟩
  | .hbm, ⟨10, _⟩ => ⟨S1x1280x64x64, .f32⟩
  | .hbm, ⟨11, _⟩ => ⟨S4x1280x64x64, .f32⟩
  | .hbm, ⟨12, _⟩ => ⟨S4x1280x64x64, .f32⟩
  | .local _ .vmem, ⟨0, _⟩ => ⟨S16x512, .f32⟩
  | .local _ .vmem, ⟨1, _⟩ => ⟨S16x4096, .f32⟩
  | .local _ .vmem, ⟨2, _⟩ => ⟨S256x512, .f32⟩
  | .local _ .vmem, ⟨3, _⟩ => ⟨S256x512, .f32⟩
  | .local _ .vmem, ⟨4, _⟩ => ⟨S256x1, .f32⟩
  | .local _ .vmem, ⟨5, _⟩ => ⟨S256x1, .f32⟩
  | .local _ .vmem, ⟨6, _⟩ => ⟨S256x4096, .bf16⟩
  | .local _ .vmem, ⟨7, _⟩ => ⟨S256x4096, .bf16⟩
  | .local _ .vmem, ⟨8, _⟩ => ⟨S16x4096, .f32⟩
  | _, _ => ⟨S4x1280x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x64x64_S16x4096 : S16x64x64.ShapeCasts S16x4096
  shapeCasts_S1280_S1280x1 : S1280.ShapeCasts S1280x1
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  natLt_1_32 : 1 < 32
  slices_S16x4096_o15_0_S1x4096 : S16x4096.Slices ![15, 0] S1x4096
  slices_S16x4096_o14_0_S1x4096 : S16x4096.Slices ![14, 0] S1x4096
  slices_S16x4096_o13_0_S1x4096 : S16x4096.Slices ![13, 0] S1x4096
  slices_S16x4096_o12_0_S1x4096 : S16x4096.Slices ![12, 0] S1x4096
  slices_S16x4096_o11_0_S1x4096 : S16x4096.Slices ![11, 0] S1x4096
  slices_S16x4096_o10_0_S1x4096 : S16x4096.Slices ![10, 0] S1x4096
  slices_S16x4096_o9_0_S1x4096 : S16x4096.Slices ![9, 0] S1x4096
  slices_S16x4096_o8_0_S1x4096 : S16x4096.Slices ![8, 0] S1x4096
  slices_S16x4096_o7_0_S1x4096 : S16x4096.Slices ![7, 0] S1x4096
  slices_S16x4096_o6_0_S1x4096 : S16x4096.Slices ![6, 0] S1x4096
  slices_S16x4096_o5_0_S1x4096 : S16x4096.Slices ![5, 0] S1x4096
  slices_S16x4096_o4_0_S1x4096 : S16x4096.Slices ![4, 0] S1x4096
  slices_S16x4096_o3_0_S1x4096 : S16x4096.Slices ![3, 0] S1x4096
  slices_S16x4096_o2_0_S1x4096 : S16x4096.Slices ![2, 0] S1x4096
  slices_S16x4096_o1_0_S1x4096 : S16x4096.Slices ![1, 0] S1x4096
  slices_S16x4096_o0_0_S1x4096 : S16x4096.Slices ![0, 0] S1x4096
  concatenates_S1x4096_S1x4096_S1x4096_S1x4096_S1x4096_S1x4096_S1x4096_S1x4096_S1x4096_S1x4096_S1x4096_S1x4096_S1x4096_S1x4096_S1x4096_S1x4096_S16x4096_d0 : Shape.Concatenates [S1x4096, S1x4096, S1x4096, S1x4096, S1x4096, S1x4096, S1x4096, S1x4096, S1x4096, S1x4096, S1x4096, S1x4096, S1x4096, S1x4096, S1x4096, S1x4096] S16x4096 0
  inb_S256x512_S256x512_0_0 : ∀ a, (![0, 0] : Fin 2 → Nat) a + S256x512.size a ≤ S256x512.size a
  h_S256x512 : 0 < S256x512.numel
  inb_S16x512_S16x512_0_0 : ∀ a, (![0, 0] : Fin 2 → Nat) a + S16x512.size a ≤ S16x512.size a
  h_S16x512 : 0 < S16x512.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x16 : S256x1.Broadcasts S256x16
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S1280x4096_S1280x64x64 : S1280x4096.ShapeCasts S1280x64x64
  bcast_S1280x64x64_S1x1280x64x64_1_2_3 : S1280x64x64.BroadcastsInDim S1x1280x64x64 (![1, 2, 3] : Fin 3 → Fin S1x1280x64x64.rank)
  bcast_S1x1280x64x64_S4x1280x64x64_0_1_2_3 : S1x1280x64x64.BroadcastsInDim S4x1280x64x64 (![0, 1, 2, 3] : Fin 4 → Fin S4x1280x64x64.rank)
  dot_S256x512_S16x512_S256x16_1_1_0_0_n_n_wf : DotDims.WF S256x512 S16x512 S256x16 [1] [1] [0] [0] [] []
  dot_S256x16_S16x4096_S256x4096_1_0_0_1_n_n_wf : DotDims.WF S256x16 S16x4096 S256x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S16x512.size a
  hwx0_0 : ∀ i : grid0.Coords, EltTy.bits .f32 = 32 ∨ (Rect.block (s := S16x512) S16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S1280x512.size a
  hwx0_2 : ∀ i : grid0.Coords, EltTy.bits .f32 = 32 ∨ (Rect.block (s := S1280x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S1280x1.size a
  hwx0_3 : ∀ i : grid0.Coords, EltTy.bits .f32 = 32 ∨ (Rect.block (s := S1280x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S1280x4096.size a
  hwx0_4 : ∀ i : grid0.Coords, EltTy.bits .bf16 = 32 ∨ (Rect.block (s := S1280x4096) S256x4096.size (cc0_transform_4 i) (hinb0_4 i)).WholeWords (EltTy.packing .bf16)

variable [Facts₀]

def dot_S256x512_S16x512_S256x16_1_1_0_0_n_n : DotDims S256x512 S16x512 S256x16 where
  lhsContracting := [1]
  rhsContracting := [1]
  lhsNonContracting := [0]
  rhsNonContracting := [0]
  lhsBatch := []
  rhsBatch := []
  wf := dot_S256x512_S16x512_S256x16_1_1_0_0_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_arg1) S16x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x1280x64x64 : Shape := ⟨4, ![4, 1280, 64, 64]⟩
abbrev S16x512 : Shape := ⟨2, ![16, 512]⟩
abbrev S16x64x64 : Shape := ⟨3, ![16, 64, 64]⟩
abbrev S1280x512 : Shape := ⟨2, ![1280, 512]⟩
abbrev S1280 : Shape := ⟨1, ![1280]⟩
abbrev S512x1280 : Shape := ⟨2, ![512, 1280]⟩
abbrev S16x1280 : Shape := ⟨2, ![16, 1280]⟩
abbrev S1x1280 : Shape := ⟨2, ![1, 1280]⟩
abbrev S_ : Shape := ⟨0, ![]⟩
abbrev S1x64x64 : Shape := ⟨3, ![1, 64, 64]⟩
abbrev S64x64 : Shape := ⟨2, ![64, 64]⟩
abbrev S1x1x64x64 : Shape := ⟨4, ![1, 1, 64, 64]⟩
abbrev S1x1280x1x1 : Shape := ⟨4, ![1, 1280, 1, 1]⟩

abbrev nBuf : Space → Nat
  | .hbm => 205
  | .vmem => 0
  | .smem => 0
  | _ => 0

abbrev hbmTy0_0 (i : Nat) : BufTy := match i % 128 with
  | 0 => ⟨S4x1280x64x64, .f32⟩
  | 1 => ⟨S16x512, .f32⟩
  | 2 => ⟨S16x64x64, .f32⟩
  | 3 => ⟨S1280x512, .f32⟩
  | 4 => ⟨S1280, .f32⟩
  | 5 => ⟨S512x1280, .f32⟩
  | 6 => ⟨S16x1280, .f32⟩
  | 7 => ⟨S1x1280, .f32⟩
  | 8 => ⟨S16x1280, .f32⟩
  | 9 => ⟨S16x1280, .f32⟩
  | 10 => ⟨S_, .f32⟩
  | 11 => ⟨S4x1280x64x64, .f32⟩
  | 12 => ⟨S1x64x64, .f32⟩
  | 13 => ⟨S64x64, .f32⟩
  | 14 => ⟨S_, .f32⟩
  | 15 => ⟨S64x64, .f32⟩
  | 16 => ⟨S64x64, .i1⟩
  | 17 => ⟨S1x1x64x64, .i1⟩
  | 18 => ⟨S1x1280, .f32⟩
  | 19 => ⟨S1280, .f32⟩
  | 20 => ⟨S1x1280x1x1, .f32⟩
  | 21 => ⟨S4x1280x64x64, .i1⟩
  | 22 => ⟨S4x1280x64x64, .f32⟩
  | 23 => ⟨S4x1280x64x64, .f32⟩
  | 24 => ⟨S1x64x64, .f32⟩
  | 25 => ⟨S64x64, .f32⟩
  | 26 => ⟨S_, .f32⟩
  | 27 => ⟨S64x64, .f32⟩
  | 28 => ⟨S64x64, .i1⟩
  | 29 => ⟨S1x1x64x64, .i1⟩
  | 30 => ⟨S1x1280, .f32⟩
  | 31 => ⟨S1280, .f32⟩
  | 32 => ⟨S1x1280x1x1, .f32⟩
  | 33 => ⟨S4x1280x64x64, .i1⟩
  | 34 => ⟨S4x1280x64x64, .f32⟩
  | 35 => ⟨S4x1280x64x64, .f32⟩
  | 36 => ⟨S1x64x64, .f32⟩
  | 37 => ⟨S64x64, .f32⟩
  | 38 => ⟨S_, .f32⟩
  | 39 => ⟨S64x64, .f32⟩
  | 40 => ⟨S64x64, .i1⟩
  | 41 => ⟨S1x1x64x64, .i1⟩
  | 42 => ⟨S1x1280, .f32⟩
  | 43 => ⟨S1280, .f32⟩
  | 44 => ⟨S1x1280x1x1, .f32⟩
  | 45 => ⟨S4x1280x64x64, .i1⟩
  | 46 => ⟨S4x1280x64x64, .f32⟩
  | 47 => ⟨S4x1280x64x64, .f32⟩
  | 48 => ⟨S1x64x64, .f32⟩
  | 49 => ⟨S64x64, .f32⟩
  | 50 => ⟨S_, .f32⟩
  | 51 => ⟨S64x64, .f32⟩
  | 52 => ⟨S64x64, .i1⟩
  | 53 => ⟨S1x1x64x64, .i1⟩
  | 54 => ⟨S1x1280, .f32⟩
  | 55 => ⟨S1280, .f32⟩
  | 56 => ⟨S1x1280x1x1, .f32⟩
  | 57 => ⟨S4x1280x64x64, .i1⟩
  | 58 => ⟨S4x1280x64x64, .f32⟩
  | 59 => ⟨S4x1280x64x64, .f32⟩
  | 60 => ⟨S1x64x64, .f32⟩
  | 61 => ⟨S64x64, .f32⟩
  | 62 => ⟨S_, .f32⟩
  | 63 => ⟨S64x64, .f32⟩
  | 64 => ⟨S64x64, .i1⟩
  | 65 => ⟨S1x1x64x64, .i1⟩
  | 66 => ⟨S1x1280, .f32⟩
  | 67 => ⟨S1280, .f32⟩
  | 68 => ⟨S1x1280x1x1, .f32⟩
  | 69 => ⟨S4x1280x64x64, .i1⟩
  | 70 => ⟨S4x1280x64x64, .f32⟩
  | 71 => ⟨S4x1280x64x64, .f32⟩
  | 72 => ⟨S1x64x64, .f32⟩
  | 73 => ⟨S64x64, .f32⟩
  | 74 => ⟨S_, .f32⟩
  | 75 => ⟨S64x64, .f32⟩
  | 76 => ⟨S64x64, .i1⟩
  | 77 => ⟨S1x1x64x64, .i1⟩
  | 78 => ⟨S1x1280, .f32⟩
  | 79 => ⟨S1280, .f32⟩
  | 80 => ⟨S1x1280x1x1, .f32⟩
  | 81 => ⟨S4x1280x64x64, .i1⟩
  | 82 => ⟨S4x1280x64x64, .f32⟩
  | 83 => ⟨S4x1280x64x64, .f32⟩
  | 84 => ⟨S1x64x64, .f32⟩
  | 85 => ⟨S64x64, .f32⟩
  | 86 => ⟨S_, .f32⟩
  | 87 => ⟨S64x64, .f32⟩
  | 88 => ⟨S64x64, .i1⟩
  | 89 => ⟨S1x1x64x64, .i1⟩
  | 90 => ⟨S1x1280, .f32⟩
  | 91 => ⟨S1280, .f32⟩
  | 92 => ⟨S1x1280x1x1, .f32⟩
  | 93 => ⟨S4x1280x64x64, .i1⟩
  | 94 => ⟨S4x1280x64x64, .f32⟩
  | 95 => ⟨S4x1280x64x64, .f32⟩
  | 96 => ⟨S1x64x64, .f32⟩
  | 97 => ⟨S64x64, .f32⟩
  | 98 => ⟨S_, .f32⟩
  | 99 => ⟨S64x64, .f32⟩
  | 100 => ⟨S64x64, .i1⟩
  | 101 => ⟨S1x1x64x64, .i1⟩
  | 102 => ⟨S1x1280, .f32⟩
  | 103 => ⟨S1280, .f32⟩
  | 104 => ⟨S1x1280x1x1, .f32⟩
  | 105 => ⟨S4x1280x64x64, .i1⟩
  | 106 => ⟨S4x1280x64x64, .f32⟩
  | 107 => ⟨S4x1280x64x64, .f32⟩
  | 108 => ⟨S1x64x64, .f32⟩
  | 109 => ⟨S64x64, .f32⟩
  | 110 => ⟨S_, .f32⟩
  | 111 => ⟨S64x64, .f32⟩
  | 112 => ⟨S64x64, .i1⟩
  | 113 => ⟨S1x1x64x64, .i1⟩
  | 114 => ⟨S1x1280, .f32⟩
  | 115 => ⟨S1280, .f32⟩
  | 116 => ⟨S1x1280x1x1, .f32⟩
  | 117 => ⟨S4x1280x64x64, .i1⟩
  | 118 => ⟨S4x1280x64x64, .f32⟩
  | 119 => ⟨S4x1280x64x64, .f32⟩
  | 120 => ⟨S1x64x64, .f32⟩
  | 121 => ⟨S64x64, .f32⟩
  | 122 => ⟨S_, .f32⟩
  | 123 => ⟨S64x64, .f32⟩
  | 124 => ⟨S64x64, .i1⟩
  | 125 => ⟨S1x1x64x64, .i1⟩
  | 126 => ⟨S1x1280, .f32⟩
  | 127 => ⟨S1280, .f32⟩
  | _ => ⟨S4x1280x64x64, .f32⟩

abbrev hbmTy0_1 (i : Nat) : BufTy := match i % 128 with
  | 0 => ⟨S1x1280x1x1, .f32⟩
  | 1 => ⟨S4x1280x64x64, .i1⟩
  | 2 => ⟨S4x1280x64x64, .f32⟩
  | 3 => ⟨S4x1280x64x64, .f32⟩
  | 4 => ⟨S1x64x64, .f32⟩
  | 5 => ⟨S64x64, .f32⟩
  | 6 => ⟨S_, .f32⟩
  | 7 => ⟨S64x64, .f32⟩
  | 8 => ⟨S64x64, .i1⟩
  | 9 => ⟨S1x1x64x64, .i1⟩
  | 10 => ⟨S1x1280, .f32⟩
  | 11 => ⟨S1280, .f32⟩
  | 12 => ⟨S1x1280x1x1, .f32⟩
  | 13 => ⟨S4x1280x64x64, .i1⟩
  | 14 => ⟨S4x1280x64x64, .f32⟩
  | 15 => ⟨S4x1280x64x64, .f32⟩
  | 16 => ⟨S1x64x64, .f32⟩
  | 17 => ⟨S64x64, .f32⟩
  | 18 => ⟨S_, .f32⟩
  | 19 => ⟨S64x64, .f32⟩
  | 20 => ⟨S64x64, .i1⟩
  | 21 => ⟨S1x1x64x64, .i1⟩
  | 22 => ⟨S1x1280, .f32⟩
  | 23 => ⟨S1280, .f32⟩
  | 24 => ⟨S1x1280x1x1, .f32⟩
  | 25 => ⟨S4x1280x64x64, .i1⟩
  | 26 => ⟨S4x1280x64x64, .f32⟩
  | 27 => ⟨S4x1280x64x64, .f32⟩
  | 28 => ⟨S1x64x64, .f32⟩
  | 29 => ⟨S64x64, .f32⟩
  | 30 => ⟨S_, .f32⟩
  | 31 => ⟨S64x64, .f32⟩
  | 32 => ⟨S64x64, .i1⟩
  | 33 => ⟨S1x1x64x64, .i1⟩
  | 34 => ⟨S1x1280, .f32⟩
  | 35 => ⟨S1280, .f32⟩
  | 36 => ⟨S1x1280x1x1, .f32⟩
  | 37 => ⟨S4x1280x64x64, .i1⟩
  | 38 => ⟨S4x1280x64x64, .f32⟩
  | 39 => ⟨S4x1280x64x64, .f32⟩
  | 40 => ⟨S1x64x64, .f32⟩
  | 41 => ⟨S64x64, .f32⟩
  | 42 => ⟨S_, .f32⟩
  | 43 => ⟨S64x64, .f32⟩
  | 44 => ⟨S64x64, .i1⟩
  | 45 => ⟨S1x1x64x64, .i1⟩
  | 46 => ⟨S1x1280, .f32⟩
  | 47 => ⟨S1280, .f32⟩
  | 48 => ⟨S1x1280x1x1, .f32⟩
  | 49 => ⟨S4x1280x64x64, .i1⟩
  | 50 => ⟨S4x1280x64x64, .f32⟩
  | 51 => ⟨S4x1280x64x64, .f32⟩
  | 52 => ⟨S1x64x64, .f32⟩
  | 53 => ⟨S64x64, .f32⟩
  | 54 => ⟨S_, .f32⟩
  | 55 => ⟨S64x64, .f32⟩
  | 56 => ⟨S64x64, .i1⟩
  | 57 => ⟨S1x1x64x64, .i1⟩
  | 58 => ⟨S1x1280, .f32⟩
  | 59 => ⟨S1280, .f32⟩
  | 60 => ⟨S1x1280x1x1, .f32⟩
  | 61 => ⟨S4x1280x64x64, .i1⟩
  | 62 => ⟨S4x1280x64x64, .f32⟩
  | 63 => ⟨S4x1280x64x64, .f32⟩
  | 64 => ⟨S1x64x64, .f32⟩
  | 65 => ⟨S64x64, .f32⟩
  | 66 => ⟨S_, .f32⟩
  | 67 => ⟨S64x64, .f32⟩
  | 68 => ⟨S64x64, .i1⟩
  | 69 => ⟨S1x1x64x64, .i1⟩
  | 70 => ⟨S1x1280, .f32⟩
  | 71 => ⟨S1280, .f32⟩
  | 72 => ⟨S1x1280x1x1, .f32⟩
  | 73 => ⟨S4x1280x64x64, .i1⟩
  | 74 => ⟨S4x1280x64x64, .f32⟩
  | 75 => ⟨S4x1280x64x64, .f32⟩
  | 76 => ⟨S4x1280x64x64, .f32⟩
  | _ => ⟨S4x1280x64x64, .f32⟩

abbrev hbmTy (i : Nat) : BufTy := match i / 128 with
  | 0 => hbmTy0_0 i
  | 1 => hbmTy0_1 i
  | _ => ⟨S4x1280x64x64, .f32⟩

abbrev bufTy : (tb : Table) → Fin (tcTables nBuf tb) → BufTy
  | .hbm, ⟨i, _⟩ => hbmTy i
  | _, _ => ⟨S4x1280x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_v0 : Ref sig .tc := ⟨.hbm, 33, rfl⟩
abbrev main_call1_v1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call2_v0 : Ref sig .tc := ⟨.hbm, 45, rfl⟩
abbrev main_call2_v1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_call3_v0 : Ref sig .tc := ⟨.hbm, 57, rfl⟩
abbrev main_call3_v1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call4_v0 : Ref sig .tc := ⟨.hbm, 69, rfl⟩
abbrev main_call4_v1 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call5_v0 : Ref sig .tc := ⟨.hbm, 81, rfl⟩
abbrev main_call5_v1 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_6 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call6_v0 : Ref sig .tc := ⟨.hbm, 93, rfl⟩
abbrev main_call6_v1 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_7 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call7_v0 : Ref sig .tc := ⟨.hbm, 105, rfl⟩
abbrev main_call7_v1 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_8 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call8_v0 : Ref sig .tc := ⟨.hbm, 117, rfl⟩
abbrev main_call8_v1 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_9 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call9_v0 : Ref sig .tc := ⟨.hbm, 129, rfl⟩
abbrev main_call9_v1 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_10 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_call10_v0 : Ref sig .tc := ⟨.hbm, 141, rfl⟩
abbrev main_call10_v1 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_11 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call11_v0 : Ref sig .tc := ⟨.hbm, 153, rfl⟩
abbrev main_call11_v1 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_12 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_call12_v0 : Ref sig .tc := ⟨.hbm, 165, rfl⟩
abbrev main_call12_v1 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_13 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_call13_v0 : Ref sig .tc := ⟨.hbm, 177, rfl⟩
abbrev main_call13_v1 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_14 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_call14_v0 : Ref sig .tc := ⟨.hbm, 189, rfl⟩
abbrev main_call14_v1 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_15 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_call15_v0 : Ref sig .tc := ⟨.hbm, 201, rfl⟩
abbrev main_call15_v1 : Ref sig .tc := ⟨.hbm, 202, rfl⟩
abbrev main_v149 : Ref sig .tc := ⟨.hbm, 203, rfl⟩
abbrev main_v150 : Ref sig .tc := ⟨.hbm, 204, rfl⟩

abbrev nD : Nat := 1
abbrev τ : Topo := Topo.v7x

variable {F : FTy → Type} [FloatOps F]

class Facts₀ : Prop where
  transposes_S1280x512_S512x1280_1_0 : S1280x512.Transposes [1, 0] S512x1280
  bcast_S1280_S1x1280_1 : S1280.BroadcastsInDim S1x1280 (![1] : Fin 1 → Fin S1x1280.rank)
  bcast_S1x1280_S16x1280_0_1 : S1x1280.BroadcastsInDim S16x1280 (![0, 1] : Fin 2 → Fin S16x1280.rank)
  bcast_S_S4x1280x64x64 : S_.BroadcastsInDim S4x1280x64x64 (![] : Fin 0 → Fin S4x1280x64x64.rank)
  slices_S16x64x64_S1x64x64_0_0_0 : S16x64x64.Slices ![0, 0, 0] S1x64x64
  shapeCasts_S1x64x64_S64x64 : S1x64x64.ShapeCasts S64x64
  bcast_S_S64x64 : S_.BroadcastsInDim S64x64 (![] : Fin 0 → Fin S64x64.rank)
  bcast_S64x64_S1x1x64x64_2_3 : S64x64.BroadcastsInDim S1x1x64x64 (![2, 3] : Fin 2 → Fin S1x1x64x64.rank)
  slices_S16x1280_S1x1280_0_0 : S16x1280.Slices ![0, 0] S1x1280
  shapeCasts_S1x1280_S1280 : S1x1280.ShapeCasts S1280
  bcast_S1280_S1x1280x1x1_1 : S1280.BroadcastsInDim S1x1280x1x1 (![1] : Fin 1 → Fin S1x1280x1x1.rank)
  bcast_S1x1x64x64_S4x1280x64x64_0_1_2_3 : S1x1x64x64.BroadcastsInDim S4x1280x64x64 (![0, 1, 2, 3] : Fin 4 → Fin S4x1280x64x64.rank)
  bcast_S1x1280x1x1_S4x1280x64x64_0_1_2_3 : S1x1280x1x1.BroadcastsInDim S4x1280x64x64 (![0, 1, 2, 3] : Fin 4 → Fin S4x1280x64x64.rank)
  slices_S16x64x64_S1x64x64_1_0_0 : S16x64x64.Slices ![1, 0, 0] S1x64x64
  slices_S16x1280_S1x1280_1_0 : S16x1280.Slices ![1, 0] S1x1280
  slices_S16x64x64_S1x64x64_2_0_0 : S16x64x64.Slices ![2, 0, 0] S1x64x64
  slices_S16x1280_S1x1280_2_0 : S16x1280.Slices ![2, 0] S1x1280
  slices_S16x64x64_S1x64x64_3_0_0 : S16x64x64.Slices ![3, 0, 0] S1x64x64
  slices_S16x1280_S1x1280_3_0 : S16x1280.Slices ![3, 0] S1x1280
  slices_S16x64x64_S1x64x64_4_0_0 : S16x64x64.Slices ![4, 0, 0] S1x64x64
  slices_S16x1280_S1x1280_4_0 : S16x1280.Slices ![4, 0] S1x1280
  slices_S16x64x64_S1x64x64_5_0_0 : S16x64x64.Slices ![5, 0, 0] S1x64x64
  slices_S16x1280_S1x1280_5_0 : S16x1280.Slices ![5, 0] S1x1280
  slices_S16x64x64_S1x64x64_6_0_0 : S16x64x64.Slices ![6, 0, 0] S1x64x64
  slices_S16x1280_S1x1280_6_0 : S16x1280.Slices ![6, 0] S1x1280
  slices_S16x64x64_S1x64x64_7_0_0 : S16x64x64.Slices ![7, 0, 0] S1x64x64
  slices_S16x1280_S1x1280_7_0 : S16x1280.Slices ![7, 0] S1x1280
  slices_S16x64x64_S1x64x64_8_0_0 : S16x64x64.Slices ![8, 0, 0] S1x64x64
  slices_S16x1280_S1x1280_8_0 : S16x1280.Slices ![8, 0] S1x1280
  slices_S16x64x64_S1x64x64_9_0_0 : S16x64x64.Slices ![9, 0, 0] S1x64x64
  slices_S16x1280_S1x1280_9_0 : S16x1280.Slices ![9, 0] S1x1280
  slices_S16x64x64_S1x64x64_10_0_0 : S16x64x64.Slices ![10, 0, 0] S1x64x64
  slices_S16x1280_S1x1280_10_0 : S16x1280.Slices ![10, 0] S1x1280
  slices_S16x64x64_S1x64x64_11_0_0 : S16x64x64.Slices ![11, 0, 0] S1x64x64
  slices_S16x1280_S1x1280_11_0 : S16x1280.Slices ![11, 0] S1x1280
  slices_S16x64x64_S1x64x64_12_0_0 : S16x64x64.Slices ![12, 0, 0] S1x64x64
  slices_S16x1280_S1x1280_12_0 : S16x1280.Slices ![12, 0] S1x1280
  slices_S16x64x64_S1x64x64_13_0_0 : S16x64x64.Slices ![13, 0, 0] S1x64x64
  slices_S16x1280_S1x1280_13_0 : S16x1280.Slices ![13, 0] S1x1280
  slices_S16x64x64_S1x64x64_14_0_0 : S16x64x64.Slices ![14, 0, 0] S1x64x64
  slices_S16x1280_S1x1280_14_0 : S16x1280.Slices ![14, 0] S1x1280
  slices_S16x64x64_S1x64x64_15_0_0 : S16x64x64.Slices ![15, 0, 0] S1x64x64
  slices_S16x1280_S1x1280_15_0 : S16x1280.Slices ![15, 0] S1x1280
  dot_S16x512_S512x1280_S16x1280_1_0_0_1_n_n_wf : DotDims.WF S16x512 S512x1280 S16x1280 [1] [0] [0] [1] [] []

variable [Facts₀]

def dot_S16x512_S512x1280_S16x1280_1_0_0_1_n_n : DotDims S16x512 S512x1280 S16x1280 where
  lhsContracting := [1]
  rhsContracting := [0]
  lhsNonContracting := [0]
  rhsNonContracting := [1]
  lhsBatch := []
  rhsBatch := []
  wf := dot_S16x512_S512x1280_S16x1280_1_0_0_1_n_n_wf

class Facts : Prop extends Facts₀ where

variable [Facts]
-- ==== Proof.Pieces.lean ====
/-
  What each case of the body leaves in the output block's staging buffer and in the carried scratch, as values.

  At the first grid point (case A) the body stores the sixteen weight rows, computed from the mask block, whole
  into the scratch, reads them back, and stores the map block computed from the weight block, the region
  features, the bias column and those rows. At the later points (case B) it stores nothing into the scratch and
  stores the map block computed with the rows the scratch already holds. Each buffer is covered by ONE store
  through the zero-offset rectangle of its whole shape, so what it holds afterwards is that store's payload.
-/
import proofs.«157078_g1486058684825_cont_week2b_673_14_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The sixteen weight rows as the body computes them from the mask block. -/
abbrev rows (x1 : Vec F S16x4096 .f32) : FVec F S16x4096 .f32 :=
  k0_pay1 (k0_pay3 x1) (k0_pay6 x1) (k0_pay9 x1) (k0_pay12 x1) (k0_pay15 x1) (k0_pay18 x1) (k0_pay21 x1)
    (k0_pay24 x1) (k0_pay27 x1) (k0_pay28 x1) (k0_pay29 x1)

/-- Case A leaves the weight rows in the scratch. -/
theorem scratch_A (c : Dev nD) (i : grid0.Coords) (arg1 : Memref sig .tc .vmem S16x512 .f32) (harg1 : arg1.IsWhole)
    (arg2 : Memref sig .tc .vmem S16x4096 .f32) (harg2 : arg2.IsWhole) (arg3 : Memref sig .tc .vmem S256x512 .f32) (harg3 : arg3.IsWhole)
    (arg4 : Memref sig .tc .vmem S256x1 .f32) (harg4 : arg4.IsWhole) (arg5 : Memref sig .tc .vmem S256x4096 .bf16) (harg5 : arg5.IsWhole)
    (arg6 : Memref sig .tc .vmem S16x4096 .f32) (harg6 : arg6.IsWhole) (hc0 : cond0_0 i)
    (x0 : Vec F S16x512 .f32) (x1 : Vec F S16x4096 .f32) (x2 : Vec F S256x512 .f32) (x3 : Vec F S256x1 .f32) :
    sout0_A_0 c i arg1 harg1 arg2 harg2 arg3 harg3 arg4 harg4 arg5 harg5 arg6 harg6 hc0 x0 x1 x2 x3 = rows x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg2.read_unread, View.ld_unit_zero (S := S16x4096) hz]

/-- Case A leaves, in the output block's buffer, the map block computed with the rows it has just stored. -/
theorem out_A (c : Dev nD) (i : grid0.Coords) (arg1 : Memref sig .tc .vmem S16x512 .f32) (harg1 : arg1.IsWhole)
    (arg2 : Memref sig .tc .vmem S16x4096 .f32) (harg2 : arg2.IsWhole) (arg3 : Memref sig .tc .vmem S256x512 .f32) (harg3 : arg3.IsWhole)
    (arg4 : Memref sig .tc .vmem S256x1 .f32) (harg4 : arg4.IsWhole) (arg5 : Memref sig .tc .vmem S256x4096 .bf16) (harg5 : arg5.IsWhole)
    (arg6 : Memref sig .tc .vmem S16x4096 .f32) (harg6 : arg6.IsWhole) (hc0 : cond0_0 i)
    (x0 : Vec F S16x512 .f32) (x1 : Vec F S16x4096 .f32) (x2 : Vec F S256x512 .f32) (x3 : Vec F S256x1 .f32) :
    out0_A_4 c i arg1 harg1 arg2 harg2 arg3 harg3 arg4 harg4 arg5 harg5 arg6 harg6 hc0 x0 x1 x2 x3 = k0_pay2 x2 x0 x3 (rows x1) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S16x512) hz, View.ld_unit_zero (S := S16x4096) hz, View.ld_unit_zero (S := S256x512) hz,
    View.ld_unit_zero (S := S256x1) hz, View.readCov_unit_zero (S := S16x4096) _ hz]

/-- Case B leaves, in the output block's buffer, the map block computed with the rows the scratch holds. -/
theorem out_B (c : Dev nD) (i : grid0.Coords) (arg1 : Memref sig .tc .vmem S16x512 .f32) (harg1 : arg1.IsWhole)
    (arg2 : Memref sig .tc .vmem S16x4096 .f32) (harg2 : arg2.IsWhole) (arg3 : Memref sig .tc .vmem S256x512 .f32) (harg3 : arg3.IsWhole)
    (arg4 : Memref sig .tc .vmem S256x1 .f32) (harg4 : arg4.IsWhole) (arg5 : Memref sig .tc .vmem S256x4096 .bf16) (harg5 : arg5.IsWhole)
    (arg6 : Memref sig .tc .vmem S16x4096 .f32) (harg6 : arg6.IsWhole) (hc0 : ¬cond0_0 i)
    (x0 : Vec F S16x512 .f32) (x1 : Vec F S16x4096 .f32) (x2 : Vec F S256x512 .f32) (x3 : Vec F S256x1 .f32)
    (xs0 : Vec F S16x4096 .f32) :
    out0_B_4 c i arg1 harg1 arg2 harg2 arg3 harg3 arg4 harg4 arg5 harg5 arg6 harg6 hc0 x0 x1 x2 x3 xs0 = k0_pay2 x2 x0 x3 xs0 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero hz]
  simp only [View.readAt_eq_ld, harg1.read_unread, harg3.read_unread, harg4.read_unread, harg6.read_unread,
    View.ld_unit_zero (S := S16x512) hz, View.ld_unit_zero (S := S16x4096) hz, View.ld_unit_zero (S := S256x512) hz,
    View.ld_unit_zero (S := S256x1) hz]

end Cert.KernelIdeal.Pieces

end
-- ==== Proof.MapPayload.lean ====
/-
  The kernel's stored value at one element of an output block, on the extended reals.

  At row `r` of a channel block and pixel `p` the body stores the sum over the sixteen regions `i` of
  `(Σ_q Wblk[r, q] * RF[i, q] + bias[r, 0]) * A[i, p]`: a matrix product of the weight block with the region
  features contracted over the 512 features, the bias column added to every region's column, then a matrix
  product with the sixteen weight rows `A` contracted over the regions. Both products accumulate into the zero
  array, so each is the plain sum over its contracted axis; the final change of float format is the identity.
-/
import proofs.«157078_g1486058684825_cont_week2b_673_14_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.MapPayload

open Cert.KernelIdeal Cert.KernelIdeal.Gen Idealize.ShloMosaic Idealize.ShloMosaic.ValueIdx

/-! ## The projection product: weight block times region features, contracted over the features -/

theorem lhs_proj_0 (i : S256x16.Idx) (q : dot_S256x512_S16x512_S256x16_1_1_0_0_n_n.contr.Idx) :
    (dot_S256x512_S16x512_S256x16_1_1_0_0_n_n.lhsIdx i q 0).val = (i 0).val := by
  unfold DotDims.lhsIdx
  rw [dif_neg (show ¬(0 : Fin S256x512.rank) ∈ dot_S256x512_S16x512_S256x16_1_1_0_0_n_n.lhsBatch by decide), dif_pos (show (0 : Fin S256x512.rank) ∈ dot_S256x512_S16x512_S256x16_1_1_0_0_n_n.lhsNonContracting by decide)]
  rfl
theorem lhs_proj_1 (i : S256x16.Idx) (q : dot_S256x512_S16x512_S256x16_1_1_0_0_n_n.contr.Idx) :
    (dot_S256x512_S16x512_S256x16_1_1_0_0_n_n.lhsIdx i q 1).val = (q ⟨0, by decide⟩).val :=
  dot_S256x512_S16x512_S256x16_1_1_0_0_n_n.lhsIdx_val_of_single rfl i q
theorem rhs_proj_0 (i : S256x16.Idx) (q : dot_S256x512_S16x512_S256x16_1_1_0_0_n_n.contr.Idx) :
    (dot_S256x512_S16x512_S256x16_1_1_0_0_n_n.rhsIdx i q 0).val = (i 1).val := by
  unfold DotDims.rhsIdx
  rw [dif_neg (show ¬(0 : Fin S16x512.rank) ∈ dot_S256x512_S16x512_S256x16_1_1_0_0_n_n.rhsBatch by decide), dif_pos (show (0 : Fin S16x512.rank) ∈ dot_S256x512_S16x512_S256x16_1_1_0_0_n_n.rhsNonContracting by decide)]
  rfl
theorem rhs_proj_1 (i : S256x16.Idx) (q : dot_S256x512_S16x512_S256x16_1_1_0_0_n_n.contr.Idx) :
    (dot_S256x512_S16x512_S256x16_1_1_0_0_n_n.rhsIdx i q 1).val = (q ⟨0, by decide⟩).val :=
  dot_S256x512_S16x512_S256x16_1_1_0_0_n_n.rhsIdx_val_of_single rfl i q

/-- Row `r`, region `i` of the projection product: the sum over the features. -/
theorem proj_apply (Wb : FVec Ideal S256x512 .f32) (RF : FVec Ideal S16x512 .f32) (r : Fin 256) (i : Fin 16) :
    FloatOps.matmul dot_S256x512_S16x512_S256x16_1_1_0_0_n_n none Wb RF (constant (F := Ideal) S256x16 .f32 0x00000000#32) (ix2 r i)
      = ∑ q : Fin 512, Wb (ix2 r q) * RF (ix2 i q) := by
  rw [Ideal.matmul_constant_zero_apply, ← Equiv.sum_comp (contrEquiv1 dot_S256x512_S16x512_S256x16_1_1_0_0_n_n 512 rfl rfl).symm]
  refine Finset.sum_congr rfl fun k _ => ?_
  have hk := contrEquiv1_symm_val dot_S256x512_S16x512_S256x16_1_1_0_0_n_n 512 rfl rfl k
  have el : dot_S256x512_S16x512_S256x16_1_1_0_0_n_n.lhsIdx (ix2 r i) ((contrEquiv1 dot_S256x512_S16x512_S256x16_1_1_0_0_n_n 512 rfl rfl).symm k) = ix2 r k := funext fun a => Fin.ext (by
    match a with
    | ⟨0, _⟩ => exact lhs_proj_0 _ _
    | ⟨1, _⟩ => exact (lhs_proj_1 _ _).trans hk)
  have er : dot_S256x512_S16x512_S256x16_1_1_0_0_n_n.rhsIdx (ix2 r i) ((contrEquiv1 dot_S256x512_S16x512_S256x16_1_1_0_0_n_n 512 rfl rfl).symm k) = ix2 i k := funext fun a => Fin.ext (by
    match a with
    | ⟨0, _⟩ => exact rhs_proj_0 _ _
    | ⟨1, _⟩ => exact (rhs_proj_1 _ _).trans hk)
  rw [el, er]

/-! ## The map product: projected rows times the weight rows, contracted over the regions -/

theorem lhs_map_0 (i : S256x4096.Idx) (q : dot_S256x16_S16x4096_S256x4096_1_0_0_1_n_n.contr.Idx) :
    (dot_S256x16_S16x4096_S256x4096_1_0_0_1_n_n.lhsIdx i q 0).val = (i 0).val := by
  unfold DotDims.lhsIdx
  rw [dif_neg (show ¬(0 : Fin S256x16.rank) ∈ dot_S256x16_S16x4096_S256x4096_1_0_0_1_n_n.lhsBatch by decide), dif_pos (show (0 : Fin S256x16.rank) ∈ dot_S256x16_S16x4096_S256x4096_1_0_0_1_n_n.lhsNonContracting by decide)]
  rfl
theorem lhs_map_1 (i : S256x4096.Idx) (q : dot_S256x16_S16x4096_S256x4096_1_0_0_1_n_n.contr.Idx) :
    (dot_S256x16_S16x4096_S256x4096_1_0_0_1_n_n.lhsIdx i q 1).val = (q ⟨0, by decide⟩).val :=
  dot_S256x16_S16x4096_S256x4096_1_0_0_1_n_n.lhsIdx_val_of_single rfl i q
theorem rhs_map_0 (i : S256x4096.Idx) (q : dot_S256x16_S16x4096_S256x4096_1_0_0_1_n_n.contr.Idx) :
    (dot_S256x16_S16x4096_S256x4096_1_0_0_1_n_n.rhsIdx i q 0).val = (q ⟨0, by decide⟩).val :=
  dot_S256x16_S16x4096_S256x4096_1_0_0_1_n_n.rhsIdx_val_of_single rfl i q
theorem rhs_map_1 (i : S256x4096.Idx) (q : dot_S256x16_S16x4096_S256x4096_1_0_0_1_n_n.contr.Idx) :
    (dot_S256x16_S16x4096_S256x4096_1_0_0_1_n_n.rhsIdx i q 1).val = (i 1).val := by
  unfold DotDims.rhsIdx
  rw [dif_neg (show ¬(1 : Fin S16x4096.rank) ∈ dot_S256x16_S16x4096_S256x4096_1_0_0_1_n_n.rhsBatch by decide), dif_pos (show (1 : Fin S16x4096.rank) ∈ dot_S256x16_S16x4096_S256x4096_1_0_0_1_n_n.rhsNonContracting by decide)]
  rfl

/-- Row `r`, pixel `p` of the map product: the sum over the regions. -/
theorem map_apply (P : FVec Ideal S256x16 .f32) (A : FVec Ideal S16x4096 .f32) (r : Fin 256) (p : Fin 4096) :
    FloatOps.matmul dot_S256x16_S16x4096_S256x4096_1_0_0_1_n_n none P A (constant (F := Ideal) S256x4096 .f32 0x00000000#32) (ix2 r p)
      = ∑ i : Fin 16, P (ix2 r i) * A (ix2 i p) := by
  rw [Ideal.matmul_constant_zero_apply, ← Equiv.sum_comp (contrEquiv1 dot_S256x16_S16x4096_S256x4096_1_0_0_1_n_n 16 rfl rfl).symm]
  refine Finset.sum_congr rfl fun k _ => ?_
  have hk := contrEquiv1_symm_val dot_S256x16_S16x4096_S256x4096_1_0_0_1_n_n 16 rfl rfl k
  have el : dot_S256x16_S16x4096_S256x4096_1_0_0_1_n_n.lhsIdx (ix2 r p) ((contrEquiv1 dot_S256x16_S16x4096_S256x4096_1_0_0_1_n_n 16 rfl rfl).symm k) = ix2 r k := funext fun a => Fin.ext (by
    match a with
    | ⟨0, _⟩ => exact lhs_map_0 _ _
    | ⟨1, _⟩ => exact (lhs_map_1 _ _).trans hk)
  have er : dot_S256x16_S16x4096_S256x4096_1_0_0_1_n_n.rhsIdx (ix2 r p) ((contrEquiv1 dot_S256x16_S16x4096_S256x4096_1_0_0_1_n_n 16 rfl rfl).symm k) = ix2 k p := funext fun a => Fin.ext (by
    match a with
    | ⟨0, _⟩ => exact (rhs_map_0 _ _).trans hk
    | ⟨1, _⟩ => exact rhs_map_1 _ _)
  rw [el, er]

/-! ## The bias column spread over the sixteen regions -/

/-- A column `[256, 1]` broadcast to `[256, 16]` reads, at `(r, i)`, the column at `(r, 0)`. -/
theorem column_bcast (v : FVec Ideal S256x1 .f32) (h : S256x1.Broadcasts S256x16) (r : Fin 256) (i : Fin 16) :
    broadcastTo S256x16 v h (ix2 r i) = v (ix2 r 0) :=
  broadcastTo_apply v h (ix2 r i) (ix2 r 0) (fun a => match a with
    | ⟨0, _⟩ => by show r.val = if (256 : Nat) = 1 then 0 else r.val; rw [if_neg (by decide)]
    | ⟨1, _⟩ => by show (0 : Nat) = if (1 : Nat) = 1 then 0 else i.val; rw [if_pos rfl])

/-! ## The stored value -/

/-- The body's stored block at row `r` and pixel `p`, from the weight block, the region features, the bias
    column and the sixteen weight rows. -/
theorem pay2_apply (Wb : FVec Ideal S256x512 .f32) (RF : FVec Ideal S16x512 .f32) (bc : FVec Ideal S256x1 .f32)
    (A : FVec Ideal S16x4096 .f32) (r : Fin 256) (p : Fin 4096) :
    k0_pay2 (F := Ideal) Wb RF bc A (ix2 r p)
      = ∑ i : Fin 16, ((∑ q : Fin 512, Wb (ix2 r q) * RF (ix2 i q)) + bc (ix2 r 0)) * A (ix2 i p) := by
  unfold k0_pay2
  refine (map_apply _ A r p).trans ?_
  refine Finset.sum_congr rfl fun i _ => ?_
  refine congrArg (· * A (ix2 i p)) ?_
  refine (addf_apply _ _ (ix2 r i)).trans ?_
  refine congrArg₂ (· + ·) (proj_apply Wb RF r i) ?_
  rw [column_bcast, shapeCast_self]

end Cert.KernelIdeal.MapPayload

end
-- ==== Proof.MapArray.lean ====
/-
  The region map as the kernel leaves it in its result array, at the ideal instance.

  Over the five grid points the carried scratch holds the sixteen weight rows of the whole mask array from the
  first point on (`scratch_eq`: stored at point 0, kept afterwards), so every point's output block is the map
  block computed from that point's 256 rows of the weights and of the bias column, the region features and those
  weight rows (`out_eq`). Point `t`'s block is rows `256 t … 256 t + 255` of ONE whole-array function `Gmap`
  (`flushed_eq`), the five blocks cover the `[1280, 4096]` array (`final`), so the array ends holding `Gmap`.
-/
import proofs.«157078_g1486058684825_cont_week2b_673_14_alg».proof.Proof.Pieces
import proofs.«157078_g1486058684825_cont_week2b_673_14_alg».proof.Proof.MapPayload
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)

namespace Cert.KernelIdeal.MapArray

open Cert.KernelIdeal Cert.KernelIdeal.Gen Idealize.ShloMosaic.ValueIdx

variable (m : (ℓ : Loc nD τ sig) → Buf (Elt Ideal) ℓ) (ρ : Dev nD → PrngReg)

/-! ## The arrays and blocks, by their literal types -/

/-- The region features, the flattened masks, the weights and the bias column as the region finds them. -/
abbrev rfArr (c : Dev nD) : FVec Ideal S16x512 .f32 := V m c main_arg1
abbrev maskArr (c : Dev nD) : FVec Ideal S16x4096 .f32 := V m c main_v0
abbrev wArr (c : Dev nD) : FVec Ideal S1280x512 .f32 := V m c main_arg3
abbrev biasArr (c : Dev nD) : FVec Ideal S1280x1 .f32 := V m c main_v1

/-- No host operation before the call writes the region features or the weights. -/
theorem rfArr_eq (c : Dev nD) : rfArr m c = m ((c : Thread nD τ).loc main_arg1) := V_main_arg1 m c
theorem wArr_eq (c : Dev nD) : wArr m c = m ((c : Thread nD τ).loc main_arg3) := V_main_arg3 m c

/-- Their blocks at grid point `t`. -/
abbrev rfBlk (c : Dev nD) (t : Fin cfg0.N) : FVec Ideal S16x512 .f32 := iblk m c 0 t
abbrev maskBlk (c : Dev nD) (t : Fin cfg0.N) : FVec Ideal S16x4096 .f32 := iblk m c 1 t
abbrev wBlk (c : Dev nD) (t : Fin cfg0.N) : FVec Ideal S256x512 .f32 := iblk m c 2 t
abbrev biasBlk (c : Dev nD) (t : Fin cfg0.N) : FVec Ideal S256x1 .f32 := iblk m c 3 t

/-- The block indices, decided over the grid: the features and masks are one block; the weights, the bias column
    and the output move one block of 256 rows per point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of point `t`'s block is row `256 t + r` of the array. -/
def rowOf (t : Fin cfg0.N) (r : Fin 256) : Fin 1280 :=
  ⟨t.val * 256 + r.val, by
    have h1 : t.val < 5 := lt_of_lt_of_eq t.isLt (show cfg0.N = 5 from N_0)
    have h2 := r.isLt
    omega⟩

theorem rfBlk_eq (c : Dev nD) (t : Fin cfg0.N) : rfBlk m c t = rfArr m c := by
  obtain ⟨e0, e1, -⟩ := idx_facts t
  funext y
  show V m c main_arg1 (((cfg0.win 0).blk t).view.emb y) = V m c main_arg1 y
  refine congrArg _ (funext fun a => Fin.ext ?_)
  match a with
  | ⟨0, _⟩ => show win0_0.index t (0 : Fin 2) * 16 + 1 * (y 0).val = (y 0).val; omega
  | ⟨1, _⟩ => show win0_0.index t (1 : Fin 2) * 512 + 1 * (y 1).val = (y 1).val; omega

theorem maskBlk_eq (c : Dev nD) (t : Fin cfg0.N) : maskBlk m c t = maskArr m c := by
  obtain ⟨-, -, e2, e3, -⟩ := idx_facts t
  funext y
  show V m c main_v0 (((cfg0.win 1).blk t).view.emb y) = V m c main_v0 y
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 4096 + 1 * (y 1).val = (y 1).val; omega

theorem wBlk_apply (c : Dev nD) (t : Fin cfg0.N) (r : Fin 256) (q : Fin 512) :
    wBlk m c t (ix2 r q) = wArr m c (ix2 (rowOf t r) q) := by
  obtain ⟨-, -, -, -, e4, e5, -⟩ := idx_facts t
  show V m c main_arg3 (((cfg0.win 2).blk t).view.emb (ix2 r q)) = V m c main_arg3 (ix2 (rowOf t r) q)
  refine congrArg _ (funext fun a => Fin.ext ?_)
  match a with
  | ⟨0, _⟩ => show win0_2.index t (0 : Fin 2) * 256 + 1 * r.val = t.val * 256 + r.val; rw [e4]; omega
  | ⟨1, _⟩ => show win0_2.index t (1 : Fin 2) * 512 + 1 * q.val = q.val; omega

theorem biasBlk_apply (c : Dev nD) (t : Fin cfg0.N) (r : Fin 256) :
    biasBlk m c t (ix2 r 0) = biasArr m c (ix2 (rowOf t r) 0) := by
  obtain ⟨-, -, -, -, -, -, e6, e7, -⟩ := idx_facts t
  show V m c main_v1 (((cfg0.win 3).blk t).view.emb (ix2 r 0)) = V m c main_v1 (ix2 (rowOf t r) 0)
  refine congrArg _ (funext fun a => Fin.ext ?_)
  match a with
  | ⟨0, _⟩ => show win0_3.index t (0 : Fin 2) * 256 + 1 * r.val = t.val * 256 + r.val; rw [e6]; omega
  | ⟨1, _⟩ => show win0_3.index t (1 : Fin 2) * 1 + 1 * (0 : Fin 1).val = (0 : Fin 1).val; omega

/-! ## What the scratch and the output block hold, point by point -/

set_option maxHeartbeats 2000000 in
/-- From the first point on the carried scratch holds the weight rows of the whole mask array. -/
theorem scratch_eq (c : Dev nD) (n : ℕ) (hn : n < cfg0.N) :
    (outsAt0 m c n hn).2 = Pieces.rows (F := Ideal) (maskArr m c) := by
  induction n with
  | zero =>
    rw [outsAt0_A m c ⟨0, hn⟩ rfl]
    dsimp only
    rw [Pieces.scratch_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩)]
    exact congrArg (Pieces.rows (F := Ideal)) (maskBlk_eq m c ⟨0, hn⟩)
  | succ n ih =>
    have hN : cfg0.N = 5 := N_0
    have hB : ¬(⟨n + 1, hn⟩ : Fin cfg0.N).val % 5 = 0 := by dsimp only; omega
    rw [outsAt0_B m c ⟨n + 1, hn⟩ hB]
    dsimp only
    unfold sout0_B_0
    exact ih _

set_option maxHeartbeats 2000000 in
/-- Every point's output block is the map block of that point's rows, computed with those weight rows. -/
theorem out_eq (c : Dev nD) (t : Fin cfg0.N) :
    (outsAt0 m c t.val t.isLt).1
      = k0_pay2 (F := Ideal) (wBlk m c t) (rfBlk m c t) (biasBlk m c t) (Pieces.rows (F := Ideal) (maskArr m c)) := by
  by_cases h0 : t.val % 5 = 0
  · rw [outsAt0_A m c t h0]
    dsimp only
    rw [Pieces.out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)]
    exact congrArg (k0_pay2 (F := Ideal) (wBlk m c t) (rfBlk m c t) (biasBlk m c t))
      (congrArg (Pieces.rows (F := Ideal)) (maskBlk_eq m c t))
  · rw [outsAt0_B m c t h0]
    dsimp only
    rw [Pieces.out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2]
    exact congrArg (k0_pay2 (F := Ideal) (wBlk m c t) (rfBlk m c t) (biasBlk m c t)) (scratch_eq m c _ _)

/-! ## One whole-array function -/

/-- The region map at channel `a` and flattened pixel `p`, from the arrays as the region finds them. -/
def gmapAt (RF : FVec Ideal S16x512 .f32) (M : FVec Ideal S16x4096 .f32) (W : FVec Ideal S1280x512 .f32)
    (B : FVec Ideal S1280x1 .f32) (a : Fin 1280) (p : Fin 4096) : EReal :=
  ∑ i : Fin 16, ((∑ q : Fin 512, W (ix2 a q) * RF (ix2 i q)) + B (ix2 a 0)) * Pieces.rows (F := Ideal) M (ix2 i p)

/-- The same as a `[1280, 4096]` array. -/
def Gmap (RF : FVec Ideal S16x512 .f32) (M : FVec Ideal S16x4096 .f32) (W : FVec Ideal S1280x512 .f32)
    (B : FVec Ideal S1280x1 .f32) : FVec Ideal S1280x4096 .bf16 :=
  fun j => gmapAt RF M W B (j 0 : Fin 1280) (j 1 : Fin 4096)

set_option maxHeartbeats 2000000 in
/-- What point `t` writes back is block `t` of `Gmap`. -/
theorem flushed_eq (c : Dev nD) (t : Fin cfg0.N) :
    (dats m 0 c).flushed 4 t
      = ((cfg0.win 4).blk t).view.read (Elt Ideal) (Gmap (rfArr m c) (maskArr m c) (wArr m c) (biasArr m c)) := by
  show (cfg0.win 4).cut (grid0.coords t) ((dats m 0 c).after 4 t) = _
  rw [after0_4, out_eq]
  obtain ⟨-, -, -, -, -, -, -, -, e8, e9⟩ := idx_facts t
  funext y
  obtain ⟨r, p, rfl⟩ : ∃ (r : Fin 256) (p : Fin 4096), y = ix2 r p := ⟨y 0, y 1, eq_ix2 y⟩
  have hy : ((cfg0.win 4).blk t).view.emb (ix2 r p) = ix2 (rowOf t r) p := funext fun a => Fin.ext (by
    match a with
    | ⟨0, _⟩ => show win0_4.index t (0 : Fin 2) * 256 + 1 * r.val = t.val * 256 + r.val; rw [e8]; omega
    | ⟨1, _⟩ => show win0_4.index t (1 : Fin 2) * 4096 + 1 * p.val = p.val; omega)
  show k0_pay2 (F := Ideal) (wBlk m c t) (rfBlk m c t) (biasBlk m c t) (Pieces.rows (F := Ideal) (maskArr m c)) (ix2 r p)
    = Gmap (rfArr m c) (maskArr m c) (wArr m c) (biasArr m c) (((cfg0.win 4).blk t).view.emb (ix2 r p))
  rw [hy, MapPayload.pay2_apply]
  show _ = gmapAt (rfArr m c) (maskArr m c) (wArr m c) (biasArr m c) (rowOf t r) p
  unfold gmapAt
  refine Finset.sum_congr rfl fun i _ => ?_
  rw [biasBlk_apply, rfBlk_eq]
  simp only [wBlk_apply]

/-- An index of the array is in point `t`'s block iff each coordinate is in the block's range on its axis. -/
theorem mem_blk (t : Fin cfg0.N) (i : S1280x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v2).slice (win0_4.rect t)).set ↔ _
  rw [View.set_slice_whole, Rect.mem_set_unit]
  exact Iff.rfl

/-- The five blocks cover the array, so it ends holding `Gmap`. -/
theorem final (c : Dev nD) :
    (dats m 0 c).arrAt 4 cfg0.N = Gmap (rfArr m c) (maskArr m c) (wArr m c) (biasArr m c) :=
  (dats m 0 c).arrAt_eq_of_cover 4 _ (fun t _ => flushed_eq m c t) fun i => by
    have hi0 : (i 0).val < 1280 := (i 0).isLt
    have hi1 : (i 1).val < 4096 := (i 1).isLt
    have hN : cfg0.N = 5 := N_0
    have ht : (i 0).val / 256 < cfg0.N := by rw [hN]; omega
    obtain ⟨-, -, -, -, -, -, -, -, e8, e9⟩ := idx_facts ⟨(i 0).val / 256, ht⟩
    refine ⟨⟨(i 0).val / 256, ht⟩, flush0_4 _, ?_⟩
    rw [mem_blk]
    intro a
    match a with
    | ⟨0, _⟩ =>
      show win0_4.index ⟨(i 0).val / 256, ht⟩ (0 : Fin 2) * 256 ≤ (i 0).val
        ∧ (i 0).val < win0_4.index ⟨(i 0).val / 256, ht⟩ (0 : Fin 2) * 256 + 256
      rw [e8]; dsimp only; omega
    | ⟨1, _⟩ =>
      show win0_4.index ⟨(i 0).val / 256, ht⟩ (1 : Fin 2) * 4096 ≤ (i 1).val
        ∧ (i 1).val < win0_4.index ⟨(i 0).val / 256, ht⟩ (1 : Fin 2) * 4096 + 4096
      omega

end Cert.KernelIdeal.MapArray

end
-- ==== Proof.LastWins.lean ====
/-
  The law that joins the two programs, on the extended reals, at one pixel and one channel.

  Sixteen regions may cover a pixel; region `i` offers the value `a i`, and `β i` says it covers the pixel.
  The reference overwrites in order, so the LAST covering region wins (`overwrite`), and the value is `0` when
  no region covers the pixel. The kernel instead weights region `i` by its indicator times the product, taken
  from the top region downwards, of the complements `1 - d j` of the later regions' indicators (`suffix`), and
  sums `a i * weight i` over all regions. The weights are one-hot at the last covering region (`weight_last`,
  `weight_not_last`), and a one-hot weighted sum picks its entry (`sum_weights`). Only `0 * x = 0`,
  `x * 1 = x`, `0 + x = x` and `1 - 1 = 0` are used: all hold on the extended reals at infinite `x` too, so
  the law needs no finiteness of the offered values.
-/
import Idealize.ShloMosaic.PureOps.Ideal

noncomputable section

open scoped BigOperators

namespace Cert.LastWins

variable (β : ℕ → Prop) [DecidablePred β] (a : ℕ → EReal)

/-- Region `i` covers the pixel and none of the later regions below `n` does. -/
def IsLast (n i : ℕ) : Prop := β i ∧ ∀ j, i < j → j < n → ¬β j

/-- The reference's sequential overwrite by the first `n` regions, starting from `0`. -/
def overwrite : ℕ → EReal
  | 0 => 0
  | n + 1 => if β n then a n else overwrite n

theorem isLast_succ_self (n : ℕ) : IsLast β (n + 1) n ↔ β n :=
  ⟨fun h => h.1, fun h => ⟨h, fun j h1 h2 => by omega⟩⟩

theorem isLast_succ_of_lt {n i : ℕ} (hi : i < n) : IsLast β (n + 1) i ↔ IsLast β n i ∧ ¬β n := by
  constructor
  · rintro ⟨hb, h⟩
    exact ⟨⟨hb, fun j h1 h2 => h j h1 (by omega)⟩, h n hi (by omega)⟩
  · rintro ⟨⟨hb, h⟩, hn⟩
    refine ⟨hb, fun j h1 h2 => ?_⟩
    rcases Nat.lt_or_ge j n with hj | hj
    · exact h j h1 hj
    · have : j = n := by omega
      subst this; exact hn

/-- A weighted sum whose weights are one-hot at the last covering region is the sequential overwrite. -/
theorem sum_weights (n : ℕ) (w : ℕ → EReal)
    (h1 : ∀ i, i < n → IsLast β n i → w i = 1) (h0 : ∀ i, i < n → ¬IsLast β n i → w i = 0) :
    ∑ i ∈ Finset.range n, a i * w i = overwrite β a n := by
  induction n with
  | zero => simp [overwrite]
  | succ n ih =>
    rw [Finset.sum_range_succ, overwrite]
    by_cases hb : β n
    · rw [if_pos hb, h1 n (Nat.lt_succ_self n) ((isLast_succ_self β n).2 hb), mul_one,
        Finset.sum_eq_zero, zero_add]
      intro i hi
      have hi' := Finset.mem_range.1 hi
      rw [h0 i (by omega) (fun h => ((isLast_succ_of_lt β hi').1 h).2 hb), mul_zero]
    · rw [if_neg hb, h0 n (Nat.lt_succ_self n) (fun h => hb ((isLast_succ_self β n).1 h)), mul_zero, add_zero]
      exact ih (fun i hi h => h1 i (by omega) ((isLast_succ_of_lt β hi).2 ⟨h, hb⟩))
        (fun i hi h => h0 i (by omega) (fun h' => h ((isLast_succ_of_lt β hi).1 h').1))

/-- The overwrite depends only on which of the first `n` regions cover the pixel and on what they offer. -/
theorem overwrite_congr {β' : ℕ → Prop} [DecidablePred β'] {a' : ℕ → EReal} (n : ℕ)
    (hβ : ∀ k, k < n → (β k ↔ β' k)) (ha : ∀ k, k < n → a k = a' k) :
    overwrite β a n = overwrite β' a' n := by
  induction n with
  | zero => rfl
  | succ n ih =>
    rw [overwrite, overwrite, ih (fun k hk => hβ k (by omega)) (fun k hk => ha k (by omega)),
      ha n (Nat.lt_succ_self n)]
    exact if_congr (hβ n (Nat.lt_succ_self n)) rfl rfl

/-! ## The kernel's weights -/

variable (d : ℕ → EReal)

/-- The running product the kernel keeps while it walks the regions from the top one, `N - 1`, downwards:
    after `k` regions it is the product of `1 - d j` over those `k`. -/
def suffix (N : ℕ) : ℕ → EReal
  | 0 => 1
  | k + 1 => suffix N k * (1 - d (N - 1 - k))

theorem one_sub_one : (1 : EReal) - 1 = 0 := by
  rw [← EReal.coe_one, ← EReal.coe_sub, sub_self, EReal.coe_zero]

variable (hd1 : ∀ j, β j → d j = 1) (hd0 : ∀ j, ¬β j → d j = 0)
include hd1 hd0

/-- None of the `k` top regions covers the pixel: the running product is still `1`. -/
theorem suffix_eq_one (N k : ℕ) (hk : k ≤ N) (h : ∀ j, N - k ≤ j → j < N → ¬β j) : suffix d N k = 1 := by
  induction k with
  | zero => rfl
  | succ k ih =>
    rw [suffix, ih (by omega) (fun j h1 h2 => h j (by omega) h2), hd0 _ (h (N - 1 - k) (by omega) (by omega)),
      sub_zero, mul_one]

/-- One of the `k` top regions covers the pixel: the running product has dropped to `0`. -/
theorem suffix_eq_zero (N k : ℕ) (hk : k ≤ N) (h : ∃ j, N - k ≤ j ∧ j < N ∧ β j) : suffix d N k = 0 := by
  induction k with
  | zero => obtain ⟨j, h1, h2, _⟩ := h; omega
  | succ k ih =>
    obtain ⟨j, h1, h2, hb⟩ := h
    rw [suffix]
    by_cases hj : j = N - 1 - k
    · subst hj; rw [hd1 _ hb, one_sub_one, mul_zero]
    · rw [ih (by omega) ⟨j, by omega, h2, hb⟩, zero_mul]

/-- The kernel's weight of the last covering region is `1`. -/
theorem weight_last (N i : ℕ) (hi : i < N) (h : IsLast β N i) : d i * suffix d N (N - 1 - i) = 1 := by
  rw [hd1 i h.1, suffix_eq_one β d hd1 hd0 N (N - 1 - i) (by omega) (fun j h1 h2 => h.2 j (by omega) h2), mul_one]

/-- The kernel's weight of any other region is `0`. -/
theorem weight_not_last (N i : ℕ) (hi : i < N) (h : ¬IsLast β N i) : d i * suffix d N (N - 1 - i) = 0 := by
  by_cases hb : β i
  · have : ∃ j, i < j ∧ j < N ∧ β j := by
      by_contra hne
      exact h ⟨hb, fun j h1 h2 hj => hne ⟨j, h1, h2, hj⟩⟩
    obtain ⟨j, h1, h2, hj⟩ := this
    rw [suffix_eq_zero β d hd1 hd0 N (N - 1 - i) (by omega) ⟨j, by omega, h2, hj⟩, mul_zero]
  · rw [hd0 i hb, zero_mul]

/-- The kernel's weighted sum over the `N` regions is the reference's sequential overwrite. -/
theorem sum_kernel_weights (N : ℕ) :
    ∑ i ∈ Finset.range N, a i * (d i * suffix d N (N - 1 - i)) = overwrite β a N :=
  sum_weights β a N (fun i => d i * suffix d N (N - 1 - i))
    (fun i hi h => weight_last β d hd1 hd0 N i hi h) (fun i hi h => weight_not_last β d hd1 hd0 N i hi h)

end Cert.LastWins

end
-- ==== Proof.Spec.lean ====
/-
  What both programs compute, as ONE function of the argument arrays, index by index, on the extended reals.

  `proj k c` is the projection of region `k`'s features to channel `c`: the sum over the 512 features of
  `RF[k, q] * W[c, q]`, plus the bias `bias[c]`. Region `k` COVERS pixel `(h, w)` when its mask there
  compares greater than one half (the comparison's bit is one). The region map at channel `c` and pixel
  `(h, w)` is the projection of the LAST covering region, `0` when none covers the pixel: the sequential
  overwrite `LastWins.overwrite` over the sixteen regions. The result adds that map, the same for every
  batch entry, to the spatial features.
-/
import proofs.«157078_g1486058684825_cont_week2b_673_14_alg».proof.Proof.LastWins
import Idealize.ShloMosaic.Lib.ValueIdx

noncomputable section

open scoped BigOperators

namespace Cert.Spec

open Idealize.ShloMosaic Idealize.ShloMosaic.ValueIdx

/-- A region number as an index of the sixteen regions (the numbers used are below 16). -/
def fin16 (k : ℕ) : Fin 16 := ⟨k % 16, Nat.mod_lt _ (by decide)⟩

theorem fin16_of_lt {k : ℕ} (hk : k < 16) : fin16 k = ⟨k, hk⟩ := Fin.ext (Nat.mod_eq_of_lt hk)

/-- Region `k` covers pixel `(h, w)`: its mask there is greater than one half. -/
def covers (M : FVec Ideal ⟨3, ![16, 64, 64]⟩ .f32) (h w : Fin 64) (k : ℕ) : Prop :=
  FloatOps.cmpf (F := Ideal) .ogt (M (ix3 (fin16 k) h w)) (FloatOps.ofBits (F := Ideal) .f32 0x3F000000#32) = 1#1

instance (M : FVec Ideal ⟨3, ![16, 64, 64]⟩ .f32) (h w : Fin 64) : DecidablePred (covers M h w) :=
  fun _ => inferInstanceAs (Decidable (_ = 1#1))

/-- The projection of region `k`'s features to channel `c`. -/
def proj (RF : FVec Ideal ⟨2, ![16, 512]⟩ .f32) (W : FVec Ideal ⟨2, ![1280, 512]⟩ .f32)
    (bias : FVec Ideal ⟨1, ![1280]⟩ .f32) (c : Fin 1280) (k : ℕ) : EReal :=
  (∑ q : Fin 512, RF (ix2 (fin16 k) q) * W (ix2 c q)) + bias (ix1 c)

/-- The region map at channel `c` and pixel `(h, w)`: the last covering region's projection, else `0`. -/
def regionMap (RF : FVec Ideal ⟨2, ![16, 512]⟩ .f32) (M : FVec Ideal ⟨3, ![16, 64, 64]⟩ .f32)
    (W : FVec Ideal ⟨2, ![1280, 512]⟩ .f32) (bias : FVec Ideal ⟨1, ![1280]⟩ .f32)
    (c : Fin 1280) (h w : Fin 64) : EReal :=
  LastWins.overwrite (covers M h w) (proj RF W bias c) 16

/-- The result: the spatial features plus the region map, at every batch entry. -/
def result (X : FVec Ideal ⟨4, ![4, 1280, 64, 64]⟩ .f32) (RF : FVec Ideal ⟨2, ![16, 512]⟩ .f32)
    (M : FVec Ideal ⟨3, ![16, 64, 64]⟩ .f32) (W : FVec Ideal ⟨2, ![1280, 512]⟩ .f32)
    (bias : FVec Ideal ⟨1, ![1280]⟩ .f32) : FVec Ideal ⟨4, ![4, 1280, 64, 64]⟩ .f32 :=
  fun j => X j + regionMap RF M W bias (j 1) (j 2) (j 3)

theorem result_apply (X : FVec Ideal ⟨4, ![4, 1280, 64, 64]⟩ .f32) (RF : FVec Ideal ⟨2, ![16, 512]⟩ .f32)
    (M : FVec Ideal ⟨3, ![16, 64, 64]⟩ .f32) (W : FVec Ideal ⟨2, ![1280, 512]⟩ .f32)
    (bias : FVec Ideal ⟨1, ![1280]⟩ .f32) (b : Fin 4) (c : Fin 1280) (h w : Fin 64) :
    result X RF M W bias (ix4 b c h w) = X (ix4 b c h w) + regionMap RF M W bias c h w := rfl

end Cert.Spec

end
-- ==== Proof.OneHot.lean ====
/-
  The sixteen weight rows the body builds at the first grid point, read at one region and one pixel.

  From the mask block the body takes, per region `j` and pixel `p`, the indicator `ind j`: the bit of
  "mask > 1/2", widened and converted, so `1` where the region covers the pixel and `0` where it does not. It
  then walks the regions from the top one down, keeping the running product of the complements `1 - ind j` of
  the regions already passed (`LastWins.suffix`), and gives region `j` the row `ind j * (running product)`.
  Row `i` of the concatenated result at pixel `p` is therefore `ind i * suffix (15 - i)`.
-/
import proofs.«157078_g1486058684825_cont_week2b_673_14_alg».proof.Proof.Gen.KernelIdeal.Skeleton
import proofs.«157078_g1486058684825_cont_week2b_673_14_alg».proof.Proof.Spec
import Idealize.ShloMosaic.Lib.Pipeline.Value
import Idealize.ShloMosaic.Lib.ValueIdx
import Idealize.ShloMosaic.Lib.ValueLayout

noncomputable section

namespace Cert.KernelIdeal.OneHot

open Cert.KernelIdeal Cert.KernelIdeal.Gen Idealize.ShloMosaic Idealize.ShloMosaic.ValueIdx

/-- The sixteen weight rows, as one function of the mask block (any float instance). -/
def weights {F : FTy → Type} [FloatOps F] (x1 : Vec F S16x4096 .f32) : FVec F S16x4096 .f32 :=
  k0_pay1 (k0_pay3 x1) (k0_pay6 x1) (k0_pay9 x1) (k0_pay12 x1) (k0_pay15 x1) (k0_pay18 x1) (k0_pay21 x1)
    (k0_pay24 x1) (k0_pay27 x1) (k0_pay28 x1) (k0_pay29 x1)

variable (x1 : FVec Ideal S16x4096 .f32) (p : Fin 4096)

/-- Region `j` covers pixel `p` of the flattened mask block: the mask there is greater than one half. -/
def cov (j : ℕ) : Prop :=
  FloatOps.cmpf (F := Ideal) .ogt (x1 (ix2 (Spec.fin16 j) p)) (FloatOps.ofBits (F := Ideal) .f32 0x3F000000#32) = 1#1

instance : DecidablePred (cov x1 p) := fun _ => inferInstanceAs (Decidable (_ = 1#1))

/-- The indicator the body computes for region `j` at pixel `p`. -/
def ind (j : ℕ) : EReal := k0_pay3 (F := Ideal) x1 (ix2 (Spec.fin16 j) p)

theorem ind_eq (j : ℕ) :
    ind x1 p j = FloatOps.sitofp (F := Ideal) .f32
      ((FloatOps.cmpf (F := Ideal) .ogt (x1 (ix2 (Spec.fin16 j) p)) (FloatOps.ofBits (F := Ideal) .f32 0x3F000000#32)).setWidth 32) := by
  unfold ind k0_pay3
  simp only [shapeCast_self]
  rfl

/-- Where the region covers the pixel the indicator is `1`. -/
theorem ind_one (j : ℕ) (h : cov x1 p j) : ind x1 p j = 1 := by
  rw [ind_eq]; unfold cov at h; rw [h]
  have e : ((1#1 : BitVec 1).setWidth 32).toInt = 1 := by decide
  show ((((1#1 : BitVec 1).setWidth 32).toInt : ℝ) : EReal) = 1
  rw [e]; simp

/-- Where it does not, the indicator is `0`. -/
theorem ind_zero (j : ℕ) (h : ¬cov x1 p j) : ind x1 p j = 0 := by
  rw [ind_eq, eq_zero_of_ne_one h]
  have e : ((0#1 : BitVec 1).setWidth 32).toInt = 0 := by decide
  show ((((0#1 : BitVec 1).setWidth 32).toInt : ℝ) : EReal) = 0
  rw [e]; simp

/-- The word `0x3F800000` is the number one. -/
theorem one_word : (Scalar.ofBits .f32 0x3F800000#32 : Ideal .f32) = (1 : EReal) := by
  show Ideal.ofBits .f32 0x3F800000#32 = 1
  simp [Ideal.ofBits, Ideal.ieee, -EReal.coe_mul]; norm_num

/-- Row `o` of the indicators, cut out as a one-row block, holds `ind o` at pixel `p`. -/
theorem slice_row (o : ℕ) (ho : o < 16) (h : S16x4096.Slices ![o, 0] S1x4096) :
    extractStridedSlice S1x4096 ![o, 0] (k0_pay3 (F := Ideal) x1) h (ix2 0 p) = ind x1 p o := by
  unfold ind
  rw [Spec.fin16_of_lt ho]
  exact slice2_axis0_apply o _ h 0 p ⟨o, ho⟩ rfl

/-- One step down the regions: the running product after `k + 1` regions. -/
theorem step (S sl : FVec Ideal S1x4096 .f32) (k : ℕ)
    (hS : S (ix2 0 p) = LastWins.suffix (ind x1 p) 16 k) (hsl : sl (ix2 0 p) = ind x1 p (16 - 1 - k)) :
    mulf S (subf (broadcast S1x4096 (Scalar.ofBits .f32 0x3F800000#32)) sl) (ix2 0 p)
      = LastWins.suffix (ind x1 p) 16 (k + 1) := by
  rw [mulf_apply, subf_apply, broadcast_apply, hS, hsl, one_word]
  rfl

/-- The row a region gets: its indicator times the running product of the regions above it. -/
theorem row (S sl : FVec Ideal S1x4096 .f32) (k : ℕ)
    (hS : S (ix2 0 p) = LastWins.suffix (ind x1 p) 16 k) (hsl : sl (ix2 0 p) = ind x1 p (16 - 1 - k)) :
    mulf sl S (ix2 0 p) = ind x1 p (16 - 1 - k) * LastWins.suffix (ind x1 p) 16 k := by
  rw [mulf_apply, hS, hsl]

/-! ## The chain through the body's named values: regions 15 down to 8, and the slice of region 7 -/

theorem hS0 : (k0_pay4 (F := Ideal)) (ix2 0 p) = LastWins.suffix (ind x1 p) 16 0 := one_word

theorem hsl15 : k0_pay5 (F := Ideal) x1 (ix2 0 p) = ind x1 p 15 := slice_row x1 p 15 (by decide) (by decide)
theorem hrow15 : k0_pay6 (F := Ideal) x1 (ix2 0 p) = ind x1 p 15 * LastWins.suffix (ind x1 p) 16 0 :=
  row x1 p (k0_pay4 (F := Ideal)) (k0_pay5 (F := Ideal) x1) 0 (hS0 x1 p) (hsl15 x1 p)
theorem hS1 : k0_pay7 (F := Ideal) x1 (ix2 0 p) = LastWins.suffix (ind x1 p) 16 1 :=
  step x1 p (k0_pay4 (F := Ideal)) (k0_pay5 (F := Ideal) x1) 0 (hS0 x1 p) (hsl15 x1 p)

theorem hsl14 : k0_pay8 (F := Ideal) x1 (ix2 0 p) = ind x1 p 14 := slice_row x1 p 14 (by decide) (by decide)
theorem hrow14 : k0_pay9 (F := Ideal) x1 (ix2 0 p) = ind x1 p 14 * LastWins.suffix (ind x1 p) 16 1 :=
  row x1 p (k0_pay7 (F := Ideal) x1) (k0_pay8 (F := Ideal) x1) 1 (hS1 x1 p) (hsl14 x1 p)
theorem hS2 : k0_pay10 (F := Ideal) x1 (ix2 0 p) = LastWins.suffix (ind x1 p) 16 2 :=
  step x1 p (k0_pay7 (F := Ideal) x1) (k0_pay8 (F := Ideal) x1) 1 (hS1 x1 p) (hsl14 x1 p)

theorem hsl13 : k0_pay11 (F := Ideal) x1 (ix2 0 p) = ind x1 p 13 := slice_row x1 p 13 (by decide) (by decide)
theorem hrow13 : k0_pay12 (F := Ideal) x1 (ix2 0 p) = ind x1 p 13 * LastWins.suffix (ind x1 p) 16 2 :=
  row x1 p (k0_pay10 (F := Ideal) x1) (k0_pay11 (F := Ideal) x1) 2 (hS2 x1 p) (hsl13 x1 p)
theorem hS3 : k0_pay13 (F := Ideal) x1 (ix2 0 p) = LastWins.suffix (ind x1 p) 16 3 :=
  step x1 p (k0_pay10 (F := Ideal) x1) (k0_pay11 (F := Ideal) x1) 2 (hS2 x1 p) (hsl13 x1 p)

theorem hsl12 : k0_pay14 (F := Ideal) x1 (ix2 0 p) = ind x1 p 12 := slice_row x1 p 12 (by decide) (by decide)
theorem hrow12 : k0_pay15 (F := Ideal) x1 (ix2 0 p) = ind x1 p 12 * LastWins.suffix (ind x1 p) 16 3 :=
  row x1 p (k0_pay13 (F := Ideal) x1) (k0_pay14 (F := Ideal) x1) 3 (hS3 x1 p) (hsl12 x1 p)
theorem hS4 : k0_pay16 (F := Ideal) x1 (ix2 0 p) = LastWins.suffix (ind x1 p) 16 4 :=
  step x1 p (k0_pay13 (F := Ideal) x1) (k0_pay14 (F := Ideal) x1) 3 (hS3 x1 p) (hsl12 x1 p)

theorem hsl11 : k0_pay17 (F := Ideal) x1 (ix2 0 p) = ind x1 p 11 := slice_row x1 p 11 (by decide) (by decide)
theorem hrow11 : k0_pay18 (F := Ideal) x1 (ix2 0 p) = ind x1 p 11 * LastWins.suffix (ind x1 p) 16 4 :=
  row x1 p (k0_pay16 (F := Ideal) x1) (k0_pay17 (F := Ideal) x1) 4 (hS4 x1 p) (hsl11 x1 p)
theorem hS5 : k0_pay19 (F := Ideal) x1 (ix2 0 p) = LastWins.suffix (ind x1 p) 16 5 :=
  step x1 p (k0_pay16 (F := Ideal) x1) (k0_pay17 (F := Ideal) x1) 4 (hS4 x1 p) (hsl11 x1 p)

theorem hsl10 : k0_pay20 (F := Ideal) x1 (ix2 0 p) = ind x1 p 10 := slice_row x1 p 10 (by decide) (by decide)
theorem hrow10 : k0_pay21 (F := Ideal) x1 (ix2 0 p) = ind x1 p 10 * LastWins.suffix (ind x1 p) 16 5 :=
  row x1 p (k0_pay19 (F := Ideal) x1) (k0_pay20 (F := Ideal) x1) 5 (hS5 x1 p) (hsl10 x1 p)
theorem hS6 : k0_pay22 (F := Ideal) x1 (ix2 0 p) = LastWins.suffix (ind x1 p) 16 6 :=
  step x1 p (k0_pay19 (F := Ideal) x1) (k0_pay20 (F := Ideal) x1) 5 (hS5 x1 p) (hsl10 x1 p)

theorem hsl9 : k0_pay23 (F := Ideal) x1 (ix2 0 p) = ind x1 p 9 := slice_row x1 p 9 (by decide) (by decide)
theorem hrow9 : k0_pay24 (F := Ideal) x1 (ix2 0 p) = ind x1 p 9 * LastWins.suffix (ind x1 p) 16 6 :=
  row x1 p (k0_pay22 (F := Ideal) x1) (k0_pay23 (F := Ideal) x1) 6 (hS6 x1 p) (hsl9 x1 p)
theorem hS7 : k0_pay25 (F := Ideal) x1 (ix2 0 p) = LastWins.suffix (ind x1 p) 16 7 :=
  step x1 p (k0_pay22 (F := Ideal) x1) (k0_pay23 (F := Ideal) x1) 6 (hS6 x1 p) (hsl9 x1 p)

theorem hsl8 : k0_pay26 (F := Ideal) x1 (ix2 0 p) = ind x1 p 8 := slice_row x1 p 8 (by decide) (by decide)
theorem hrow8 : k0_pay27 (F := Ideal) x1 (ix2 0 p) = ind x1 p 8 * LastWins.suffix (ind x1 p) 16 7 :=
  row x1 p (k0_pay25 (F := Ideal) x1) (k0_pay26 (F := Ideal) x1) 7 (hS7 x1 p) (hsl8 x1 p)
theorem hS8 : k0_pay28 (F := Ideal) x1 (ix2 0 p) = LastWins.suffix (ind x1 p) 16 8 :=
  step x1 p (k0_pay25 (F := Ideal) x1) (k0_pay26 (F := Ideal) x1) 7 (hS7 x1 p) (hsl8 x1 p)

theorem hsl7 : k0_pay29 (F := Ideal) x1 (ix2 0 p) = ind x1 p 7 := slice_row x1 p 7 (by decide) (by decide)

/-! ## Regions 7 down to 0, and the concatenation -/

/-- A pixel's coordinate is kept when a one-row block is placed as a row of the sixteen-row array. -/
theorem keep_pixel (j : Fin 16) (b : Fin S1x4096.rank) (hb : b.cast (rfl : S1x4096.rank = S16x4096.rank) ≠ (0 : Fin S16x4096.rank)) :
    ((ix2 (0 : Fin 1) p) b).val = ((ix2 j p) (b.cast (rfl : S1x4096.rank = S16x4096.rank))).val := by
  match b with
  | ⟨0, _⟩ => exact absurd rfl hb
  | ⟨1, _⟩ => rfl

/-- A concatenation of one-row blocks along the rows, read at row `k` and pixel `p`: block `k` at pixel `p`. -/
theorem concat_row (xs : List ((s : Shape) × (s.Idx → EReal))) (h : Shape.Concatenates (xs.map (·.1)) S16x4096 0)
    (k : ℕ) (hk16 : k < 16) (hk : k < xs.length) (x₁ : S1x4096.Idx → EReal) (hxk : xs[k] = ⟨S1x4096, x₁⟩)
    (hpre : (((xs.take k).map (·.1)).map fun s =>
      if h : s.rank = S16x4096.rank then s.size ((0 : Fin S16x4096.rank).cast h.symm) else 0).sum = k) :
    concatenate S16x4096 0 xs h (ix2 ⟨k, hk16⟩ p) = x₁ (ix2 0 p) :=
  concatenate_apply_piece (t := S16x4096) 0 xs h (ix2 ⟨k, hk16⟩ p) k hk S1x4096 x₁ hxk rfl k hpre (ix2 0 p)
    (keep_pixel p _) rfl

set_option maxHeartbeats 2000000 in
/-- Row `i` of the weights at pixel `p`: region `i`'s indicator times the running product of the regions above. -/
theorem weights_apply (i : Fin 16) :
    weights (F := Ideal) x1 (ix2 i p) = ind x1 p i.val * LastWins.suffix (ind x1 p) 16 (16 - 1 - i.val) := by
  unfold weights k0_pay1
  have hS9 := step x1 p _ _ 8 (hS8 x1 p) (hsl7 x1 p)
  have hrow7 := row x1 p _ _ 8 (hS8 x1 p) (hsl7 x1 p)
  have hsl6 := slice_row x1 p 6 (by decide) (by decide)
  have hS10 := step x1 p _ _ 9 hS9 hsl6
  have hrow6 := row x1 p _ _ 9 hS9 hsl6
  have hsl5 := slice_row x1 p 5 (by decide) (by decide)
  have hS11 := step x1 p _ _ 10 hS10 hsl5
  have hrow5 := row x1 p _ _ 10 hS10 hsl5
  have hsl4 := slice_row x1 p 4 (by decide) (by decide)
  have hS12 := step x1 p _ _ 11 hS11 hsl4
  have hrow4 := row x1 p _ _ 11 hS11 hsl4
  have hsl3 := slice_row x1 p 3 (by decide) (by decide)
  have hS13 := step x1 p _ _ 12 hS12 hsl3
  have hrow3 := row x1 p _ _ 12 hS12 hsl3
  have hsl2 := slice_row x1 p 2 (by decide) (by decide)
  have hS14 := step x1 p _ _ 13 hS13 hsl2
  have hrow2 := row x1 p _ _ 13 hS13 hsl2
  have hsl1 := slice_row x1 p 1 (by decide) (by decide)
  have hS15 := step x1 p _ _ 14 hS14 hsl1
  have hrow1 := row x1 p _ _ 14 hS14 hsl1
  have hsl0 := slice_row x1 p 0 (by decide) (by decide)
  have hrow0 := row x1 p _ _ 15 hS15 hsl0
  refine (congrFun (shapeCast_self _ _) _).trans ?_
  fin_cases i
  · refine (concat_row p _ _ 0 (by decide) ?_ _ ?_ ?_).trans hrow0 <;> first | rfl | (simp only [List.length_cons, List.length_nil]; omega)
  · refine (concat_row p _ _ 1 (by decide) ?_ _ ?_ ?_).trans hrow1 <;> first | rfl | (simp only [List.length_cons, List.length_nil]; omega)
  · refine (concat_row p _ _ 2 (by decide) ?_ _ ?_ ?_).trans hrow2 <;> first | rfl | (simp only [List.length_cons, List.length_nil]; omega)
  · refine (concat_row p _ _ 3 (by decide) ?_ _ ?_ ?_).trans hrow3 <;> first | rfl | (simp only [List.length_cons, List.length_nil]; omega)
  · refine (concat_row p _ _ 4 (by decide) ?_ _ ?_ ?_).trans hrow4 <;> first | rfl | (simp only [List.length_cons, List.length_nil]; omega)
  · refine (concat_row p _ _ 5 (by decide) ?_ _ ?_ ?_).trans hrow5 <;> first | rfl | (simp only [List.length_cons, List.length_nil]; omega)
  · refine (concat_row p _ _ 6 (by decide) ?_ _ ?_ ?_).trans hrow6 <;> first | rfl | (simp only [List.length_cons, List.length_nil]; omega)
  · refine (concat_row p _ _ 7 (by decide) ?_ _ ?_ ?_).trans hrow7 <;> first | rfl | (simp only [List.length_cons, List.length_nil]; omega)
  · refine (concat_row p _ _ 8 (by decide) ?_ _ ?_ ?_).trans (hrow8 x1 p) <;> first | rfl | (simp only [List.length_cons, List.length_nil]; omega)
  · refine (concat_row p _ _ 9 (by decide) ?_ _ ?_ ?_).trans (hrow9 x1 p) <;> first | rfl | (simp only [List.length_cons, List.length_nil]; omega)
  · refine (concat_row p _ _ 10 (by decide) ?_ _ ?_ ?_).trans (hrow10 x1 p) <;> first | rfl | (simp only [List.length_cons, List.length_nil]; omega)
  · refine (concat_row p _ _ 11 (by decide) ?_ _ ?_ ?_).trans (hrow11 x1 p) <;> first | rfl | (simp only [List.length_cons, List.length_nil]; omega)
  · refine (concat_row p _ _ 12 (by decide) ?_ _ ?_ ?_).trans (hrow12 x1 p) <;> first | rfl | (simp only [List.length_cons, List.length_nil]; omega)
  · refine (concat_row p _ _ 13 (by decide) ?_ _ ?_ ?_).trans (hrow13 x1 p) <;> first | rfl | (simp only [List.length_cons, List.length_nil]; omega)
  · refine (concat_row p _ _ 14 (by decide) ?_ _ ?_ ?_).trans (hrow14 x1 p) <;> first | rfl | (simp only [List.length_cons, List.length_nil]; omega)
  · refine (concat_row p _ _ 15 (by decide) ?_ _ ?_ ?_).trans (hrow15 x1 p) <;> first | rfl | (simp only [List.length_cons, List.length_nil]; omega)

end Cert.KernelIdeal.OneHot

end
-- ==== Proof.KernelValue.lean ====
/-
  The kernel's result: `Spec.result` of its arguments.

  Before the call the host flattens the masks to `[16, 4096]` (pixel `(h, w)` becomes `64 h + w`) and the bias
  to a column; after it the host widens the `[1280, 4096]` map, reshapes it to `[1280, 64, 64]`, broadcasts it
  over the batch and adds the spatial features. So the result at `(b, c, h, w)` is the spatial feature there
  plus the map at channel `c` and pixel `64 h + w` (`tail_apply`). The map there is the sum over the regions of
  their projections times the one-hot weight rows (`MapArray.gmapAt`), which the last-wins law turns into the
  projection of the last covering region (`gmap_eq`): `Spec.regionMap`.
-/
import proofs.«157078_g1486058684825_cont_week2b_673_14_alg».proof.Proof.MapArray
import proofs.«157078_g1486058684825_cont_week2b_673_14_alg».proof.Proof.OneHot
import Idealize.ShloMosaic.Lib.StableHlo.Run
import Idealize.ShloMosaic.Lib.ValueLayout

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen
open Idealize.ShloMosaic.ValueIdx
open Cert.KernelIdeal.MapArray (rfArr maskArr wArr biasArr)

variable (m : (ℓ : Loc nD τ sig) → Buf (Elt Ideal) ℓ) (ρ : Dev nD → PrngReg)

/-- The spatial features as launched, and the two arrays the tail reads as the region leaves them. -/
abbrev spatialArr (c : Dev nD) : FVec Ideal S4x1280x64x64 .f32 := m ((c : Thread nD τ).loc main_arg0)
abbrev keptSpatial (c : Dev nD) : FVec Ideal S4x1280x64x64 .f32 :=
  Pipeline.withArrays (cfgs 0).spec c (V0 m c) (fun w => (dats m 0 c).arrAt w (cfgs 0).N) (Proc.devRef .tc main_arg0)
abbrev keptMap (c : Dev nD) : FVec Ideal S1280x4096 .bf16 :=
  Pipeline.withArrays (cfgs 0).spec c (V0 m c) (fun w => (dats m 0 c).arrAt w (cfgs 0).N) (Proc.devRef .tc main_v2)

/-- Pixel `(h, w)` in the flattened pixel axis. -/
def pix (h w : Fin 64) : Fin 4096 := ⟨h.val * 64 + w.val, by have := h.isLt; have := w.isLt; omega⟩

/-! ## The host operations before the call -/

/-- The flattened masks at `(k, 64 h + w)` are the masks at `(k, h, w)`. -/
theorem maskArr_apply (c : Dev nD) (k : Fin 16) (h w : Fin 64) :
    maskArr m c (ix2 k (pix h w)) = m ((c : Thread nD τ).loc main_arg2) (ix3 k h w) := by
  have e : maskArr m c = shapeCast S16x4096 (m ((c : Thread nD τ).loc main_arg2)) shapeCasts_S16x64x64_S16x4096 := by
    show StableHlo.after hostOps0 (fun b => m (c, b)) (Proc.devRef .tc main_v0) = _
    after_results
    rfl
  rw [e]
  exact shapeCast_apply _ _ (ix2 k (pix h w)) (ix3 k h w) (by
    rw [Shape.rowMajor_val_three, Shape.rowMajor_val_two]
    show (k.val * 64 + h.val) * 64 + w.val = k.val * 4096 + (h.val * 64 + w.val)
    omega)

/-- The bias column at `(a, 0)` is the bias at `a`. -/
theorem biasArr_apply (c : Dev nD) (a : Fin 1280) :
    biasArr m c (ix2 a 0) = m ((c : Thread nD τ).loc main_arg4) (ix1 a) := by
  have e : biasArr m c = shapeCast S1280x1 (m ((c : Thread nD τ).loc main_arg4)) shapeCasts_S1280_S1280x1 := by
    show StableHlo.after hostOps0 (fun b => m (c, b)) (Proc.devRef .tc main_v1) = _
    after_results
    rfl
  rw [e]
  exact shapeCast_apply _ _ (ix2 a 0) (ix1 a) (by
    rw [Shape.rowMajor_val_one, Shape.rowMajor_val_two]
    show a.val = a.val * 1 + 0
    omega)

/-! ## The host operations after the call -/

/-- Widen, reshape to `[1280, 64, 64]`, broadcast over the batch, add: at `(b, a, h, w)` the sum of the first
    operand there and the map at `(a, 64 h + w)`. -/
theorem tail_layout (X : FVec Ideal S4x1280x64x64 .f32) (G : FVec Ideal S1280x4096 .bf16)
    {h4 : S1x1280x64x64.BroadcastsInDim S4x1280x64x64 ![0, 1, 2, 3]}
    {h3 : S1280x64x64.BroadcastsInDim S1x1280x64x64 ![1, 2, 3]}
    {h2 : S1280x4096.ShapeCasts S1280x64x64} {hb : FTy.bits .bf16 < FTy.bits .f32}
    (b : Fin 4) (a : Fin 1280) (h w : Fin 64) :
    addf X (broadcastInDim S4x1280x64x64 ![0, 1, 2, 3] h4 (broadcastInDim S1x1280x64x64 ![1, 2, 3] h3
      (shapeCast S1280x64x64 (extf .f32 G hb) h2))) (ix4 b a h w) = X (ix4 b a h w) + G (ix2 a (pix h w)) := by
  rw [addf_apply,
    broadcastInDim_apply _ h4 _ (ix4 b a h w) (ix4 (0 : Fin 1) a h w) (fun d => match d with
      | ⟨0, _⟩ => by show (0 : Nat) = if (1 : Nat) = 1 then 0 else b.val; rw [if_pos rfl]
      | ⟨1, _⟩ => by show a.val = if (1280 : Nat) = 1 then 0 else a.val; rw [if_neg (by decide)]
      | ⟨2, _⟩ => by show h.val = if (64 : Nat) = 1 then 0 else h.val; rw [if_neg (by decide)]
      | ⟨3, _⟩ => by show w.val = if (64 : Nat) = 1 then 0 else w.val; rw [if_neg (by decide)]),
    broadcastInDim_apply _ h3 _ (ix4 (0 : Fin 1) a h w) (ix3 a h w) (fun d => match d with
      | ⟨0, _⟩ => by show a.val = if (1280 : Nat) = 1 then 0 else a.val; rw [if_neg (by decide)]
      | ⟨1, _⟩ => by show h.val = if (64 : Nat) = 1 then 0 else h.val; rw [if_neg (by decide)]
      | ⟨2, _⟩ => by show w.val = if (64 : Nat) = 1 then 0 else w.val; rw [if_neg (by decide)]),
    shapeCast_apply _ h2 (ix3 a h w) (ix2 a (pix h w)) (by
      rw [Shape.rowMajor_val_two, Shape.rowMajor_val_three]
      show a.val * 4096 + (h.val * 64 + w.val) = (a.val * 64 + h.val) * 64 + w.val
      omega)]
  rfl

/-- The tail of @main, as its operations of the arrays the region leaves. -/
theorem tail_eq (c : Dev nD) :
    (Pipeline.afterTail₀ cfgs (dats m) 0 (V0 m) [hostOps1] c main_v7 : FVec Ideal S4x1280x64x64 .f32)
      = addf (keptSpatial m c)
          (broadcastInDim S4x1280x64x64 ![0, 1, 2, 3] bcast_S1x1280x64x64_S4x1280x64x64_0_1_2_3
            (broadcastInDim S1x1280x64x64 ![1, 2, 3] bcast_S1280x64x64_S1x1280x64x64_1_2_3
              (shapeCast S1280x64x64 (extf .f32 (keptMap m c) bitsLt_bf16_f32) shapeCasts_S1280x4096_S1280x64x64))) := by
  unfold Pipeline.afterTail₀
  show StableHlo.after hostOps1 _ (Proc.devRef .tc main_v7) = _
  after_results
  rfl

/-- The result at `(b, a, h, w)`: the spatial feature there plus the map at channel `a` and pixel `64 h + w`. -/
theorem tail_apply (c : Dev nD) (b : Fin 4) (a : Fin 1280) (h w : Fin 64) :
    (Pipeline.afterTail₀ cfgs (dats m) 0 (V0 m) [hostOps1] c main_v7 : FVec Ideal S4x1280x64x64 .f32) (ix4 b a h w)
      = spatialArr m c (ix4 b a h w)
        + MapArray.gmapAt (rfArr m c) (maskArr m c) (wArr m c) (biasArr m c) a (pix h w) := by
  refine (congrFun (tail_eq m c) (ix4 b a h w)).trans ?_
  refine (tail_layout _ _ b a h w).trans ?_
  refine congrArg₂ (· + ·) ?_ ?_
  · exact congrFun ((Pipeline.withArrays_of_ne spec0 c (V0 m c) _ main_arg0
      (by exact (by decide : ∀ w, Pipeline.arrRef spec0 w ≠ main_arg0))).trans (V_main_arg0 m c)) _
  · exact congrFun ((Pipeline.withArrays_arr spec0 launch0.win.arr_inj c (V0 m c)
      (fun w => (dats m 0 c).arrAt w (cfgs 0).N) 4).trans (MapArray.final m c)) _

/-! ## The map is the last covering region's projection -/

theorem gmap_eq (c : Dev nD) (a : Fin 1280) (h w : Fin 64) :
    MapArray.gmapAt (rfArr m c) (maskArr m c) (wArr m c) (biasArr m c) a (pix h w)
      = Spec.regionMap (m ((c : Thread nD τ).loc main_arg1)) (m ((c : Thread nD τ).loc main_arg2))
          (m ((c : Thread nD τ).loc main_arg3)) (m ((c : Thread nD τ).loc main_arg4)) a h w := by
  unfold MapArray.gmapAt Spec.regionMap
  have hrows : ∀ i : Fin 16, Pieces.rows (F := Ideal) (maskArr m c) (ix2 i (pix h w))
      = OneHot.ind (maskArr m c) (pix h w) i.val
        * LastWins.suffix (OneHot.ind (maskArr m c) (pix h w)) 16 (16 - 1 - i.val) :=
    fun i => OneHot.weights_apply (maskArr m c) (pix h w) i
  simp only [hrows]
  have hfin : ∀ i : Fin 16, Spec.fin16 i.val = i := fun i => Fin.ext (Nat.mod_eq_of_lt i.isLt)
  rw [show (∑ i : Fin 16, ((∑ q : Fin 512, wArr m c (ix2 a q) * rfArr m c (ix2 i q)) + biasArr m c (ix2 a 0))
        * (OneHot.ind (maskArr m c) (pix h w) i.val
          * LastWins.suffix (OneHot.ind (maskArr m c) (pix h w)) 16 (16 - 1 - i.val)))
      = ∑ k ∈ Finset.range 16, ((∑ q : Fin 512, wArr m c (ix2 a q) * rfArr m c (ix2 (Spec.fin16 k) q)) + biasArr m c (ix2 a 0))
        * (OneHot.ind (maskArr m c) (pix h w) k
          * LastWins.suffix (OneHot.ind (maskArr m c) (pix h w)) 16 (16 - 1 - k)) from by
    rw [← Fin.sum_univ_eq_sum_range (fun k => ((∑ q : Fin 512, wArr m c (ix2 a q) * rfArr m c (ix2 (Spec.fin16 k) q)) + biasArr m c (ix2 a 0))
        * (OneHot.ind (maskArr m c) (pix h w) k
          * LastWins.suffix (OneHot.ind (maskArr m c) (pix h w)) 16 (16 - 1 - k))) 16]
    refine Finset.sum_congr rfl fun i _ => ?_
    rw [hfin i]]
  rw [LastWins.sum_kernel_weights (OneHot.cov (maskArr m c) (pix h w))
      (fun k => (∑ q : Fin 512, wArr m c (ix2 a q) * rfArr m c (ix2 (Spec.fin16 k) q)) + biasArr m c (ix2 a 0))
      (OneHot.ind (maskArr m c) (pix h w)) (OneHot.ind_one (maskArr m c) (pix h w))
      (OneHot.ind_zero (maskArr m c) (pix h w)) 16]
  refine LastWins.overwrite_congr _ _ 16 (fun k hk => ?_) (fun k hk => ?_)
  · unfold OneHot.cov Spec.covers
    rw [maskArr_apply]
  · show (∑ q : Fin 512, wArr m c (ix2 a q) * rfArr m c (ix2 (Spec.fin16 k) q)) + biasArr m c (ix2 a 0)
      = Spec.proj _ _ _ a k
    unfold Spec.proj
    rw [biasArr_apply]
    refine congrArg (· + _) (Finset.sum_congr rfl fun q _ => ?_)
    rw [mul_comm, MapArray.rfArr_eq, MapArray.wArr_eq]

/-- The tail's result is `Spec.result` of the arguments. -/
theorem kernel_result (c : Dev nD) :
    Pipeline.afterTail₀ cfgs (dats m) 0 (V0 m) [hostOps1] c main_v7
      = Spec.result (m ((c : Thread nD τ).loc main_arg0)) (m ((c : Thread nD τ).loc main_arg1))
          (m ((c : Thread nD τ).loc main_arg2)) (m ((c : Thread nD τ).loc main_arg3))
          (m ((c : Thread nD τ).loc main_arg4)) := by
  funext j
  obtain ⟨b, a, h, w, rfl⟩ : ∃ b a h w, j = ix4 b a h w := ⟨j 0, j 1, j 2, j 3, eq_ix4 j⟩
  rw [tail_apply, gmap_eq]
  rfl

/-! ## The run -/

/-- Every weakly fair execution of the idealized kernel ends with `Spec.result` of the arguments in its result
    buffer and the arguments unchanged. -/
theorem run : θ_run defs (onTc (τ := τ) (main (F := Ideal))) ⟨m, fun _ => 0, ρ⟩ fun r => ∀ c : Dev nD,
      r.2.mem ((c.tc : Thread nD τ).loc main_v7)
        = Spec.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans (kernel_result m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.RefStages.lean ====
/-
  The reference's run read stage by stage: its result is `Spec.result` of the arguments.

  The reference projects the region features (`proj = RF · Wᵀ + bias`), starts the region map at zero and,
  for the regions `k = 0, …, 15` in order, overwrites it with region `k`'s projection wherever that region's
  mask exceeds one half. Step `k` reads the mask through a slice of row `k`, a reshape and two broadcasts
  (`bit_apply`) and the projection through a slice of row `k`, a reshape and two broadcasts (`val_apply`), so
  at one element it is exactly one more step of `LastWins.overwrite` (`step`); sixteen steps and the final
  addition of the spatial features give `Spec.result`.
-/
import proofs.«157078_g1486058684825_cont_week2b_673_14_alg».proof.Proof.RefRead
import proofs.«157078_g1486058684825_cont_week2b_673_14_alg».proof.Proof.Spec
import Idealize.ShloMosaic.Lib.ValueLayout

noncomputable section

open scoped BigOperators

namespace Cert.RefStages

open Cert.ReferenceIdeal Cert.ReferenceIdeal.ReadStages Idealize.ShloMosaic Idealize.ShloMosaic.ValueIdx

variable (x1 : FVec Ideal S16x512 .f32) (x2 : FVec Ideal S16x64x64 .f32) (x3 : FVec Ideal S1280x512 .f32)
  (x4 : FVec Ideal S1280 .f32) (b : Fin 4) (c : Fin 1280) (h w : Fin 64)

/-- Region `k`'s mask bit, as the `where` sees it at `(b, c, h, w)`: the comparison of the mask at `(k, h, w)`
    with one half. -/
theorem bit_apply (k : ℕ) (hk : k < 16) {hsl : S16x64x64.Slices ![k, 0, 0] S1x64x64} {hsc : S1x64x64.ShapeCasts S64x64}
    {hb0 : S_.BroadcastsInDim S64x64 ![]} {hb1 : S64x64.BroadcastsInDim S1x1x64x64 ![2, 3]}
    {hb2 : S1x1x64x64.BroadcastsInDim S4x1280x64x64 ![0, 1, 2, 3]} :
    broadcastInDim S4x1280x64x64 ![0, 1, 2, 3] hb2
      (broadcastInDim S1x1x64x64 ![2, 3] hb1
        (cmpf .ogt (shapeCast S64x64 (extractStridedSlice S1x64x64 ![k, 0, 0] x2 hsl) hsc)
          (broadcastInDim S64x64 ![] hb0 (constant (F := Ideal) S_ .f32 0x3F000000#32)))) (ix4 b c h w)
      = FloatOps.cmpf (F := Ideal) .ogt (x2 (ix3 ⟨k, hk⟩ h w)) (FloatOps.ofBits (F := Ideal) .f32 0x3F000000#32) := by
  rw [broadcastInDim_apply _ hb2 _ (ix4 b c h w) (ix4 (0 : Fin 1) (0 : Fin 1) h w) (fun a => match a with
      | ⟨0, _⟩ => by show (0 : Nat) = if (1 : Nat) = 1 then 0 else b.val; rw [if_pos rfl]
      | ⟨1, _⟩ => by show (0 : Nat) = if (1 : Nat) = 1 then 0 else c.val; rw [if_pos rfl]
      | ⟨2, _⟩ => by show h.val = if (64 : Nat) = 1 then 0 else h.val; rw [if_neg (by decide)]
      | ⟨3, _⟩ => by show w.val = if (64 : Nat) = 1 then 0 else w.val; rw [if_neg (by decide)]),
    broadcastInDim_apply _ hb1 _ (ix4 (0 : Fin 1) (0 : Fin 1) h w) (ix2 h w) (fun a => match a with
      | ⟨0, _⟩ => by show h.val = if (64 : Nat) = 1 then 0 else h.val; rw [if_neg (by decide)]
      | ⟨1, _⟩ => by show w.val = if (64 : Nat) = 1 then 0 else w.val; rw [if_neg (by decide)]),
    cmpf_apply, shapeCast_1ab_ab_apply,
    extractStridedSlice_apply ![k, 0, 0] x2 hsl (ix3 (0 : Fin 1) h w) (ix3 ⟨k, hk⟩ h w) (fun a => match a with
      | ⟨0, _⟩ => by show k = k + 0; rfl
      | ⟨1, _⟩ => by show h.val = 0 + h.val; omega
      | ⟨2, _⟩ => by show w.val = 0 + w.val; omega),
    broadcastInDim_apply _ hb0 _ (ix2 h w) ix0 (fun a => a.elim0)]
  rfl

/-- Region `k`'s projected value, as the `where` sees it at `(b, c, h, w)`: the projection at `(k, c)`. -/
theorem val_apply (P : FVec Ideal S16x1280 .f32) (k : ℕ) (hk : k < 16) {hsl : S16x1280.Slices ![k, 0] S1x1280}
    {hsc : S1x1280.ShapeCasts S1280} {hb1 : S1280.BroadcastsInDim S1x1280x1x1 ![1]}
    {hb2 : S1x1280x1x1.BroadcastsInDim S4x1280x64x64 ![0, 1, 2, 3]} :
    broadcastInDim S4x1280x64x64 ![0, 1, 2, 3] hb2 (broadcastInDim S1x1280x1x1 ![1] hb1
      (shapeCast S1280 (extractStridedSlice S1x1280 ![k, 0] P hsl) hsc)) (ix4 b c h w) = P (ix2 ⟨k, hk⟩ c) := by
  rw [broadcastInDim_apply _ hb2 _ (ix4 b c h w) (ix4 (0 : Fin 1) c (0 : Fin 1) (0 : Fin 1)) (fun a => match a with
      | ⟨0, _⟩ => by show (0 : Nat) = if (1 : Nat) = 1 then 0 else b.val; rw [if_pos rfl]
      | ⟨1, _⟩ => by show c.val = if (1280 : Nat) = 1 then 0 else c.val; rw [if_neg (by decide)]
      | ⟨2, _⟩ => by show (0 : Nat) = if (1 : Nat) = 1 then 0 else h.val; rw [if_pos rfl]
      | ⟨3, _⟩ => by show (0 : Nat) = if (1 : Nat) = 1 then 0 else w.val; rw [if_pos rfl]),
    broadcastInDim_apply _ hb1 _ (ix4 (0 : Fin 1) c (0 : Fin 1) (0 : Fin 1)) (ix1 c) (fun a => match a with
      | ⟨0, _⟩ => by show c.val = if (1280 : Nat) = 1 then 0 else c.val; rw [if_neg (by decide)]),
    shapeCast_1a_a_apply, slice2_axis0_apply k P hsl 0 c ⟨k, hk⟩ rfl]

/-- The reference's projection at region `k` and channel `c` is `Spec.proj`. -/
theorem proj_eq (k : ℕ) (hk : k < 16) :
    val_main_v4 (F := Ideal) x1 x3 x4 (ix2 ⟨k, hk⟩ c) = Spec.proj x1 x3 x4 c k := by
  have e1 : ∀ q : Fin 512, lidx_main_v1 (ix2 (⟨k, hk⟩ : Fin 16) c) q = ix2 ⟨k, hk⟩ q := fun q =>
    funext fun a => Fin.ext (by match a with | ⟨0, _⟩ => rfl | ⟨1, _⟩ => rfl)
  have e2 : ∀ q : Fin 512, idx_main_v0 (ridx_main_v1 (ix2 (⟨k, hk⟩ : Fin 16) c) q) = ix2 c q := fun q =>
    funext fun a => Fin.ext (by match a with | ⟨0, _⟩ => rfl | ⟨1, _⟩ => rfl)
  have e3 : idx_main_v2 (idx_main_v3 (ix2 (⟨k, hk⟩ : Fin 16) c)) = ix1 c :=
    funext fun a => Fin.ext (by match a with | ⟨0, _⟩ => rfl)
  rw [val_main_v4_apply, val_main_v1_apply, val_main_v3_apply, val_main_v2_apply, e3]
  simp only [val_main_v0_apply, e1, e2]
  unfold Spec.proj
  rw [Spec.fin16_of_lt hk]
  rfl

/-- One `where`: over a map that holds the overwrite by the first `k` regions at this element, it holds the
    overwrite by the first `k + 1`. -/
theorem step (k : ℕ) (hk : k < 16) {hsl : S16x64x64.Slices ![k, 0, 0] S1x64x64} {hsc : S1x64x64.ShapeCasts S64x64}
    {hb0 : S_.BroadcastsInDim S64x64 ![]} {hb1 : S64x64.BroadcastsInDim S1x1x64x64 ![2, 3]}
    {hb2 : S1x1x64x64.BroadcastsInDim S4x1280x64x64 ![0, 1, 2, 3]}
    {gsl : S16x1280.Slices ![k, 0] S1x1280} {gsc : S1x1280.ShapeCasts S1280}
    {gb1 : S1280.BroadcastsInDim S1x1280x1x1 ![1]} {gb2 : S1x1280x1x1.BroadcastsInDim S4x1280x64x64 ![0, 1, 2, 3]}
    (prev : FVec Ideal S4x1280x64x64 .f32)
    (hprev : prev (ix4 b c h w) = LastWins.overwrite (Spec.covers x2 h w) (Spec.proj x1 x3 x4 c) k) :
    select
        (broadcastInDim S4x1280x64x64 ![0, 1, 2, 3] hb2
          (broadcastInDim S1x1x64x64 ![2, 3] hb1
            (cmpf .ogt (shapeCast S64x64 (extractStridedSlice S1x64x64 ![k, 0, 0] x2 hsl) hsc)
              (broadcastInDim S64x64 ![] hb0 (constant (F := Ideal) S_ .f32 0x3F000000#32)))))
        (broadcastInDim S4x1280x64x64 ![0, 1, 2, 3] gb2 (broadcastInDim S1x1280x1x1 ![1] gb1
          (shapeCast S1280 (extractStridedSlice S1x1280 ![k, 0] (val_main_v4 (F := Ideal) x1 x3 x4) gsl) gsc)))
        prev (ix4 b c h w)
      = LastWins.overwrite (Spec.covers x2 h w) (Spec.proj x1 x3 x4 c) (k + 1) := by
  rw [select_apply, bit_apply x2 b c h w k hk, val_apply b c h w _ k hk, proj_eq x1 x3 x4 c k hk, hprev,
    ← Spec.fin16_of_lt hk]
  rfl

/-- The map starts at zero: the overwrite by no region. -/
theorem r_start : val_main_v5 (F := Ideal) (ix4 b c h w) = LastWins.overwrite (Spec.covers x2 h w) (Spec.proj x1 x3 x4 c) 0 := by
  rw [val_main_v5_apply, val_main_cst_apply]
  exact Ideal.ofBits_zero_f32

/-! ## The sixteen overwrites, in order -/

theorem r0 : val_main_v14 (F := Ideal) x1 x2 x3 x4 (ix4 b c h w) = LastWins.overwrite (Spec.covers x2 h w) (Spec.proj x1 x3 x4 c) 1 :=
  step x1 x2 x3 x4 b c h w 0 (by decide) (val_main_v5 (F := Ideal)) (r_start x1 x2 x3 x4 b c h w)
theorem r1 : val_main_v23 (F := Ideal) x1 x2 x3 x4 (ix4 b c h w) = LastWins.overwrite (Spec.covers x2 h w) (Spec.proj x1 x3 x4 c) 2 :=
  step x1 x2 x3 x4 b c h w 1 (by decide) (val_main_v14 (F := Ideal) x1 x2 x3 x4) (r0 x1 x2 x3 x4 b c h w)
theorem r2 : val_main_v32 (F := Ideal) x1 x2 x3 x4 (ix4 b c h w) = LastWins.overwrite (Spec.covers x2 h w) (Spec.proj x1 x3 x4 c) 3 :=
  step x1 x2 x3 x4 b c h w 2 (by decide) (val_main_v23 (F := Ideal) x1 x2 x3 x4) (r1 x1 x2 x3 x4 b c h w)
theorem r3 : val_main_v41 (F := Ideal) x1 x2 x3 x4 (ix4 b c h w) = LastWins.overwrite (Spec.covers x2 h w) (Spec.proj x1 x3 x4 c) 4 :=
  step x1 x2 x3 x4 b c h w 3 (by decide) (val_main_v32 (F := Ideal) x1 x2 x3 x4) (r2 x1 x2 x3 x4 b c h w)
theorem r4 : val_main_v50 (F := Ideal) x1 x2 x3 x4 (ix4 b c h w) = LastWins.overwrite (Spec.covers x2 h w) (Spec.proj x1 x3 x4 c) 5 :=
  step x1 x2 x3 x4 b c h w 4 (by decide) (val_main_v41 (F := Ideal) x1 x2 x3 x4) (r3 x1 x2 x3 x4 b c h w)
theorem r5 : val_main_v59 (F := Ideal) x1 x2 x3 x4 (ix4 b c h w) = LastWins.overwrite (Spec.covers x2 h w) (Spec.proj x1 x3 x4 c) 6 :=
  step x1 x2 x3 x4 b c h w 5 (by decide) (val_main_v50 (F := Ideal) x1 x2 x3 x4) (r4 x1 x2 x3 x4 b c h w)
theorem r6 : val_main_v68 (F := Ideal) x1 x2 x3 x4 (ix4 b c h w) = LastWins.overwrite (Spec.covers x2 h w) (Spec.proj x1 x3 x4 c) 7 :=
  step x1 x2 x3 x4 b c h w 6 (by decide) (val_main_v59 (F := Ideal) x1 x2 x3 x4) (r5 x1 x2 x3 x4 b c h w)
theorem r7 : val_main_v77 (F := Ideal) x1 x2 x3 x4 (ix4 b c h w) = LastWins.overwrite (Spec.covers x2 h w) (Spec.proj x1 x3 x4 c) 8 :=
  step x1 x2 x3 x4 b c h w 7 (by decide) (val_main_v68 (F := Ideal) x1 x2 x3 x4) (r6 x1 x2 x3 x4 b c h w)
theorem r8 : val_main_v86 (F := Ideal) x1 x2 x3 x4 (ix4 b c h w) = LastWins.overwrite (Spec.covers x2 h w) (Spec.proj x1 x3 x4 c) 9 :=
  step x1 x2 x3 x4 b c h w 8 (by decide) (val_main_v77 (F := Ideal) x1 x2 x3 x4) (r7 x1 x2 x3 x4 b c h w)
theorem r9 : val_main_v95 (F := Ideal) x1 x2 x3 x4 (ix4 b c h w) = LastWins.overwrite (Spec.covers x2 h w) (Spec.proj x1 x3 x4 c) 10 :=
  step x1 x2 x3 x4 b c h w 9 (by decide) (val_main_v86 (F := Ideal) x1 x2 x3 x4) (r8 x1 x2 x3 x4 b c h w)
theorem r10 : val_main_v104 (F := Ideal) x1 x2 x3 x4 (ix4 b c h w) = LastWins.overwrite (Spec.covers x2 h w) (Spec.proj x1 x3 x4 c) 11 :=
  step x1 x2 x3 x4 b c h w 10 (by decide) (val_main_v95 (F := Ideal) x1 x2 x3 x4) (r9 x1 x2 x3 x4 b c h w)
theorem r11 : val_main_v113 (F := Ideal) x1 x2 x3 x4 (ix4 b c h w) = LastWins.overwrite (Spec.covers x2 h w) (Spec.proj x1 x3 x4 c) 12 :=
  step x1 x2 x3 x4 b c h w 11 (by decide) (val_main_v104 (F := Ideal) x1 x2 x3 x4) (r10 x1 x2 x3 x4 b c h w)
theorem r12 : val_main_v122 (F := Ideal) x1 x2 x3 x4 (ix4 b c h w) = LastWins.overwrite (Spec.covers x2 h w) (Spec.proj x1 x3 x4 c) 13 :=
  step x1 x2 x3 x4 b c h w 12 (by decide) (val_main_v113 (F := Ideal) x1 x2 x3 x4) (r11 x1 x2 x3 x4 b c h w)
theorem r13 : val_main_v131 (F := Ideal) x1 x2 x3 x4 (ix4 b c h w) = LastWins.overwrite (Spec.covers x2 h w) (Spec.proj x1 x3 x4 c) 14 :=
  step x1 x2 x3 x4 b c h w 13 (by decide) (val_main_v122 (F := Ideal) x1 x2 x3 x4) (r12 x1 x2 x3 x4 b c h w)
theorem r14 : val_main_v140 (F := Ideal) x1 x2 x3 x4 (ix4 b c h w) = LastWins.overwrite (Spec.covers x2 h w) (Spec.proj x1 x3 x4 c) 15 :=
  step x1 x2 x3 x4 b c h w 14 (by decide) (val_main_v131 (F := Ideal) x1 x2 x3 x4) (r13 x1 x2 x3 x4 b c h w)
theorem r15 : val_main_v149 (F := Ideal) x1 x2 x3 x4 (ix4 b c h w) = LastWins.overwrite (Spec.covers x2 h w) (Spec.proj x1 x3 x4 c) 16 :=
  step x1 x2 x3 x4 b c h w 15 (by decide) (val_main_v140 (F := Ideal) x1 x2 x3 x4) (r14 x1 x2 x3 x4 b c h w)

/-- The reference's result is `Spec.result` of its arguments. -/
theorem reference_eq (x0 : FVec Ideal S4x1280x64x64 .f32) :
    val_main_v150 (F := Ideal) x0 x1 x2 x3 x4 = Spec.result x0 x1 x2 x3 x4 := by
  funext j
  obtain ⟨b, c, h, w, rfl⟩ : ∃ b c h w, j = ix4 b c h w := ⟨j 0, j 1, j 2, j 3, eq_ix4 j⟩
  rw [val_main_v150_apply, r15 x1 x2 x3 x4 b c h w]
  rfl

end Cert.RefStages

end
-- ==== Proof.lean ====
/-
  The certificate's claims for the region-feature injection kernel against its reference.

  Both programs compute `out = spatial + map`, the map being the same at every batch entry: at channel `c` and
  pixel `(h, w)` it is the projection `proj[i, c] = Σ_q RF[i, q] · W[c, q] + bias[c]` of the LAST region `i`
  whose mask at `(h, w)` exceeds one half, and `0` when no region's mask does (`Spec.result`).

  The reference overwrites a zero map region by region, so the last covering region wins (RefStages.lean). The
  kernel builds, at its first grid point, sixteen weight rows that are one-hot at the last covering region
  (OneHot.lean), keeps them in a scratch over its five grid points, and at each point multiplies 256 projected
  channel rows into them (MapPayload.lean, Pieces.lean, MapArray.lean); the host code after the call widens the
  map, reshapes it to `[1280, 64, 64]`, broadcasts it over the batch and adds the spatial features
  (KernelValue.lean). A weighted sum with one-hot weights picks its entry (LastWins.lean): the two results are
  one function of the arguments, on the extended reals, with no finiteness needed.

  The kernel's two frames are its generated frames; the reference's frame is its run (RefRun.lean: the host
  operations window by window) with the result dropped; the ideal pass rewrote nothing, so the kernel's idealization is its own text read at the ideal
  instance.
-/
import proofs.«157078_g1486058684825_cont_week2b_673_14_alg».proof.Defs
import proofs.«157078_g1486058684825_cont_week2b_673_14_alg».proof.Proof.Gen.Kernel
import proofs.«157078_g1486058684825_cont_week2b_673_14_alg».proof.Proof.Gen.Kernel.Skeleton
import proofs.«157078_g1486058684825_cont_week2b_673_14_alg».proof.Proof.Gen.Kernel.Launch
import proofs.«157078_g1486058684825_cont_week2b_673_14_alg».proof.Proof.Gen.Kernel.Points
import proofs.«157078_g1486058684825_cont_week2b_673_14_alg».proof.Proof.Gen.Kernel.Frame
import proofs.«157078_g1486058684825_cont_week2b_673_14_alg».proof.Proof.Gen.KernelIdeal
import proofs.«157078_g1486058684825_cont_week2b_673_14_alg».proof.Proof.Gen.KernelIdeal.Skeleton
import proofs.«157078_g1486058684825_cont_week2b_673_14_alg».proof.Proof.Gen.KernelIdeal.Launch
import proofs.«157078_g1486058684825_cont_week2b_673_14_alg».proof.Proof.Gen.KernelIdeal.Points
import proofs.«157078_g1486058684825_cont_week2b_673_14_alg».proof.Proof.Gen.KernelIdeal.Frame
import proofs.«157078_g1486058684825_cont_week2b_673_14_alg».proof.Proof.Gen.ReferenceIdeal
import proofs.«157078_g1486058684825_cont_week2b_673_14_alg».proof.Proof.Gen.Pre_finite_inputs
import Idealize.ShloMosaic.Adequacy
import Idealize.ShloMosaic.Init
import proofs.«157078_g1486058684825_cont_week2b_673_14_alg».proof.Proof.KernelValue
import proofs.«157078_g1486058684825_cont_week2b_673_14_alg».proof.Proof.RefStages
import proofs.«157078_g1486058684825_cont_week2b_673_14_alg».proof.Proof.RefRun

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunWindows.run (F := Ideal) m ρ)

/-- From memories that agree on the arguments both programs end with `Spec.result` of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RunWindows.run (F := Ideal) m' ρ')
  rw [Cert.RefStages.reference_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
